-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel

variable [Facts]

def fn {F : FTy → Type} [FloatOps F] (main_arg0 : FVec F S1000000x128 .f32) (main_arg1 : IVec S1000000 32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  main_v3
-- ==== Kernel.lean ====
abbrev S1000000x128 : Shape := ⟨2, ![1000000, 128]⟩
abbrev S1000000 : Shape := ⟨1, ![1000000]⟩
abbrev S_ : Shape := ⟨0, ![]⟩
abbrev S1007616x128 : Shape := ⟨2, ![1007616, 128]⟩
abbrev S1007616 : Shape := ⟨1, ![1007616]⟩
abbrev S128x128 : Shape := ⟨2, ![128, 128]⟩
abbrev S8192x128 : Shape := ⟨2, ![8192, 128]⟩
abbrev S8192 : Shape := ⟨1, ![8192]⟩
abbrev S8192x1 : Shape := ⟨2, ![8192, 1]⟩
abbrev S100x1 : Shape := ⟨2, ![100, 1]⟩
abbrev S100 : Shape := ⟨1, ![100]⟩
abbrev S100x128 : Shape := ⟨2, ![100, 128]⟩

abbrev nBuf : Space → Nat
  | .hbm => 20
  | .vmem => 13
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S_, .i32⟩
  | .hbm, ⟨3, _⟩ => ⟨S_, .f32⟩
  | .hbm, ⟨4, _⟩ => ⟨S1007616x128, .f32⟩
  | .hbm, ⟨5, _⟩ => ⟨S_, .i32⟩
  | .hbm, ⟨6, _⟩ => ⟨S_, .i32⟩
  | .hbm, ⟨7, _⟩ => ⟨S1007616, .i32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S100x1, .f32⟩
  | .hbm, ⟨12, _⟩ => ⟨S100, .f32⟩
  | .hbm, ⟨13, _⟩ => ⟨S100x128, .f32⟩
  | .hbm, ⟨14, _⟩ => ⟨S_, .f32⟩
  | .hbm, ⟨15, _⟩ => ⟨S100, .f32⟩
  | .hbm, ⟨16, _⟩ => ⟨S100, .f32⟩
  | .hbm, ⟨17, _⟩ => ⟨S100x1, .f32⟩
  | .hbm, ⟨18, _⟩ => ⟨S100x128, .f32⟩
  | .hbm, ⟨19, _⟩ => ⟨S100x128, .f32⟩
  | .local _ .vmem, ⟨0, _⟩ => ⟨S8192x128, .f32⟩
  | .local _ .vmem, ⟨1, _⟩ => ⟨S8192x128, .f32⟩
  | .local _ .vmem, ⟨2, _⟩ => ⟨S8192, .i32⟩
  | .local _ .vmem, ⟨3, _⟩ => ⟨S8192, .i32⟩
  | .local _ .vmem, ⟨4, _⟩ => ⟨S128x128, .f32⟩
  | .local _ .vmem, ⟨5, _⟩ => ⟨S128x128, .f32⟩
  | .local _ .vmem, ⟨6, _⟩ => ⟨S8192x128, .f32⟩
  | .local _ .vmem, ⟨7, _⟩ => ⟨S8192x128, .f32⟩
  | .local _ .vmem, ⟨8, _⟩ => ⟨S8192, .i32⟩
  | .local _ .vmem, ⟨9, _⟩ => ⟨S8192, .i32⟩
  | .local _ .vmem, ⟨10, _⟩ => ⟨S128x128, .f32⟩
  | .local _ .vmem, ⟨11, _⟩ => ⟨S128x128, .f32⟩
  | .local _ .vmem, ⟨12, _⟩ => ⟨S128x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![123], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  pads_S1000000x128_S1007616x128_076160_000 : S1000000x128.Pads (![0, 0] : Fin 2 → Nat) ![7616, 0] ![0, 0] S1007616x128
  h_S_ : 0 < S_.numel
  pads_S1000000_S1007616_076160 : S1000000.Pads (![0] : Fin 1 → Nat) ![7616] ![0] S1007616
  inb_S128x128_S128x128_0_0 : ∀ a, (![0, 0] : Fin 2 → Nat) a + S128x128.size a ≤ S128x128.size a
  h_S128x128 : 0 < S128x128.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S8192_S8192_0 : ∀ a, (![0] : Fin 1 → Nat) a + S8192.size a ≤ S8192.size a
  h_S8192 : 0 < S8192.numel
  shapeCasts_S8192_S8192 : S8192.ShapeCasts S8192
  reduces_S8192x128_S8192 : S8192x128.Reduces [1] S8192
  shapeCasts_S8192_S8192x1 : S8192.ShapeCasts S8192x1
  broadcasts_S8192x1_S8192x128 : S8192x1.Broadcasts S8192x128
  bitsLt_bf16_f32 : FTy.bits .bf16 < FTy.bits .f32
  iota_S8192x128_d1_w32 : S8192x128.Iotas .tc 32 [1]
  natLt_1_32 : 1 < 32
  shapeCasts_S128x128_S128x128 : S128x128.ShapeCasts S128x128
  slices_S8192x128_o0_0_S8192x1 : S8192x128.Slices ![0, 0] S8192x1
  slices_S128x128_S100x1_0_0 : S128x128.Slices ![0, 0] S100x1
  shapeCasts_S100x1_S100 : S100x1.ShapeCasts S100
  slices_S128x128_S100x128_0_0 : S128x128.Slices ![0, 0] S100x128
  bcast_S_S100 : S_.BroadcastsInDim S100 (![] : Fin 0 → Fin S100.rank)
  bcast_S100_S100x1_0 : S100.BroadcastsInDim S100x1 (![0] : Fin 1 → Fin S100x1.rank)
  bcast_S100x1_S100x128_0_1 : S100x1.BroadcastsInDim S100x128 (![0, 1] : Fin 2 → Fin S100x128.rank)
  dot_S8192x128_S8192x128_S128x128_0_0_1_1_n_n_wf : DotDims.WF S8192x128 S8192x128 S128x128 [0] [0] [1] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1007616x128.size a
  hwx0_0 : ∀ i : grid0.Coords, EltTy.bits .f32 = 32 ∨ (Rect.block (s := S1007616x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S1007616.size a
  hwx0_1 : ∀ i : grid0.Coords, EltTy.bits .i32 = 32 ∨ (Rect.block (s := S1007616) S8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S1007616x128.size a
  hwx1_0 : ∀ i : grid1.Coords, EltTy.bits .f32 = 32 ∨ (Rect.block (s := S1007616x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192.size a ≤ S1007616.size a
  hwx1_1 : ∀ i : grid1.Coords, EltTy.bits .i32 = 32 ∨ (Rect.block (s := S1007616) S8192.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)

variable [Facts₀]

def dot_S8192x128_S8192x128_S128x128_0_0_1_1_n_n : DotDims S8192x128 S8192x128 S128x128 where
  lhsContracting := [0]
  rhsContracting := [0]
  lhsNonContracting := [1]
  rhsNonContracting := [1]
  lhsBatch := []
  rhsBatch := []
  wf := dot_S8192x128_S8192x128_S128x128_0_0_1_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S128x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S128x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S128x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S_ : Shape := ⟨0, ![]⟩
abbrev S1000000x1 : Shape := ⟨2, ![1000000, 1]⟩
abbrev S100 : Shape := ⟨1, ![100]⟩
abbrev S100x128 : Shape := ⟨2, ![100, 128]⟩
abbrev S100x1 : Shape := ⟨2, ![100, 1]⟩

abbrev nBuf : Space → Nat
  | .hbm => 71
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S1000000x128, .f32⟩
  | .hbm, ⟨3, _⟩ => ⟨S_, .f32⟩
  | .hbm, ⟨4, _⟩ => ⟨S1000000, .f32⟩
  | .hbm, ⟨5, _⟩ => ⟨S1000000x1, .f32⟩
  | .hbm, ⟨6, _⟩ => ⟨S1000000x1, .f32⟩
  | .hbm, ⟨7, _⟩ => ⟨S_, .f32⟩
  | .hbm, ⟨8, _⟩ => ⟨S1000000x1, .f32⟩
  | .hbm, ⟨9, _⟩ => ⟨S1000000x1, .f32⟩
  | .hbm, ⟨10, _⟩ => ⟨S1000000x128, .f32⟩
  | .hbm, ⟨11, _⟩ => ⟨S1000000x128, .f32⟩
  | .hbm, ⟨12, _⟩ => ⟨S_, .f32⟩
  | .hbm, ⟨13, _⟩ => ⟨S1000000, .f32⟩
  | .hbm, ⟨14, _⟩ => ⟨S_, .f32⟩
  | .hbm, ⟨15, _⟩ => ⟨S100, .f32⟩
  | .hbm, ⟨16, _⟩ => ⟨S1000000x1, .i32⟩
  | .hbm, ⟨17, _⟩ => ⟨S100, .f32⟩
  | .hbm, ⟨18, _⟩ => ⟨S_, .f32⟩
  | .hbm, ⟨19, _⟩ => ⟨S100x128, .f32⟩
  | .hbm, ⟨20, _⟩ => ⟨S1000000x1, .i32⟩
  | .hbm, ⟨21, _⟩ => ⟨S100x128, .f32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000, .f32⟩
  | .hbm, ⟨31, _⟩ => ⟨S1000000x128, .f32⟩
  | .hbm, ⟨32, _⟩ => ⟨S_, .f32⟩
  | .hbm, ⟨33, _⟩ => ⟨S1000000, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000x128, .f32⟩
  | .hbm, ⟨43, _⟩ => ⟨S1000000x128, .f32⟩
  | .hbm, ⟨44, _⟩ => ⟨S_, .f32⟩
  | .hbm, ⟨45, _⟩ => ⟨S1000000, .f32⟩
  | .hbm, ⟨46, _⟩ => ⟨S1000000, .f32⟩
  | .hbm, ⟨47, _⟩ => ⟨S_, .f32⟩
  | .hbm, ⟨48, _⟩ => ⟨S1000000, .f32⟩
  | .hbm, ⟨49, _⟩ => ⟨S1000000, .f32⟩
  | .hbm, ⟨50, _⟩ => ⟨S_, .f32⟩
  | .hbm, ⟨51, _⟩ => ⟨S1000000, .f32⟩
  | .hbm, ⟨52, _⟩ => ⟨S1000000, .f32⟩
  | .hbm, ⟨53, _⟩ => ⟨S_, .f32⟩
  | .hbm, ⟨54, _⟩ => ⟨S1000000, .f32⟩
  | .hbm, ⟨55, _⟩ => ⟨S1000000, .f32⟩
  | .hbm, ⟨56, _⟩ => ⟨S1000000, .f32⟩
  | .hbm, ⟨57, _⟩ => ⟨S1000000, .f32⟩
  | .hbm, ⟨58, _⟩ => ⟨S1000000x1, .f32⟩
  | .hbm, ⟨59, _⟩ => ⟨S1000000x128, .f32⟩
  | .hbm, ⟨60, _⟩ => ⟨S1000000x128, .f32⟩
  | .hbm, ⟨61, _⟩ => ⟨S_, .f32⟩
  | .hbm, ⟨62, _⟩ => ⟨S100x128, .f32⟩
  | .hbm, ⟨63, _⟩ => ⟨S1000000x1, .i32⟩
  | .hbm, ⟨64, _⟩ => ⟨S100x128, .f32⟩
  | .hbm, ⟨65, _⟩ => ⟨S_, .f32⟩
  | .hbm, ⟨66, _⟩ => ⟨S100, .f32⟩
  | .hbm, ⟨67, _⟩ => ⟨S100, .f32⟩
  | .hbm, ⟨68, _⟩ => ⟨S100x1, .f32⟩
  | .hbm, ⟨69, _⟩ => ⟨S100x128, .f32⟩
  | .hbm, ⟨70, _⟩ => ⟨S100x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]

class Facts₀ : Prop where
  reducesTo_S1000000x128_S1000000_d1 : S1000000x128.ReducesTo [1] S1000000
  h_S_ : 0 < S_.numel
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1000000x1_S1000000x128_0_1 : S1000000x1.BroadcastsInDim S1000000x128 (![0, 1] : Fin 2 → Fin S1000000x128.rank)
  bcast_S_S1000000 : S_.BroadcastsInDim S1000000 (![] : Fin 0 → Fin S1000000.rank)
  bcast_S_S100 : S_.BroadcastsInDim S100 (![] : Fin 0 → Fin S100.rank)
  bcast_S_S100x128 : S_.BroadcastsInDim S100x128 (![] : Fin 0 → Fin S100x128.rank)
  bcast_S100_S100x1_0 : S100.BroadcastsInDim S100x1 (![0] : Fin 1 → Fin S100x1.rank)
  bcast_S100x1_S100x128_0_1 : S100x1.BroadcastsInDim S100x128 (![0, 1] : Fin 2 → Fin S100x128.rank)
  scatter_S100_S1000000x1_S1000000_n_0_0_1_wf : ScatterDims.WF S100 S1000000x1 S1000000 [] [0] [0] 1
  scatter_S100x128_S1000000x1_S1000000x128_1_0_0_1_wf : ScatterDims.WF S100x128 S1000000x1 S1000000x128 [1] [0] [0] 1
  gather_S100_S1000000x1_S1000000_n_0_n_n_0_1_1_wf : GatherDims.WF S100 S1000000x1 S1000000 [] [0] [] [0] [] 1 ![1]
  gather_S100x128_S1000000x1_S1000000x128_1_0_n_n_0_1_1128_wf : GatherDims.WF S100x128 S1000000x1 S1000000x128 [1] [0] [] [0] [] 1 ![1, 128]

variable [Facts₀]

def scatter_S100_S1000000x1_S1000000_n_0_0_1 : ScatterDims S100 S1000000x1 S1000000 where
  updateWindowDims := []
  insertedWindowDims := [0]
  scatterDimsToOperandDims := [0]
  indexVectorDim := 1
  wf := scatter_S100_S1000000x1_S1000000_n_0_0_1_wf
def scatter_S100x128_S1000000x1_S1000000x128_1_0_0_1 : ScatterDims S100x128 S1000000x1 S1000000x128 where
  updateWindowDims := [1]
  insertedWindowDims := [0]
  scatterDimsToOperandDims := [0]
  indexVectorDim := 1
  wf := scatter_S100x128_S1000000x1_S1000000x128_1_0_0_1_wf
def gather_S100_S1000000x1_S1000000_n_0_n_n_0_1_1 : GatherDims S100 S1000000x1 S1000000 where
  offsetDims := []
  collapsedSliceDims := [0]
  operandBatchingDims := []
  startIndicesBatchingDims := []
  startIndexMap := [0]
  indexVectorDim := 1
  sliceSizes := ![1]
  wf := gather_S100_S1000000x1_S1000000_n_0_n_n_0_1_1_wf
def gather_S100x128_S1000000x1_S1000000x128_1_0_n_n_0_1_1128 : GatherDims S100x128 S1000000x1 S1000000x128 where
  offsetDims := [1]
  collapsedSliceDims := [0]
  operandBatchingDims := []
  startIndicesBatchingDims := []
  startIndexMap := [0]
  indexVectorDim := 1
  sliceSizes := ![1, 128]
  wf := gather_S100x128_S1000000x1_S1000000x128_1_0_n_n_0_1_1128_wf

class Facts : Prop extends Facts₀ where

variable [Facts]
-- ==== Proof.Spec.lean ====
/-
  The mathematics of the class-prototype computation, stated once over the extended reals.

  Input: features `x : [1000000, 128]` and integer labels `lab : [1000000]`.  For a row `i` let
  `u i = x i / max ‖x i‖ ε` (the row scaled to unit length, `ε` the literal guard).  For a class word `c`:
    cnt c    = number of rows labelled `c`
    msum c d = Σ_{i : lab i = c} u i d
    wgt c i  = (⟨u i, msum c⟩ − ⟨u i, u i⟩) / (max (cnt c − 1) 1 · max (cnt c) 1)
    psum c d = Σ_{i : lab i = c} wgt c i · x i d
    proto (c, d) = psum c d / max (cnt c) 1          for the 100 classes c = 0 … 99.
  Every sum over a class is written as a sum over ALL rows of an indicator times the term, which is the
  form both programs reach: a scatter-add keeps the rows whose label is the class, and a product with a
  one-hot matrix multiplies each row by the indicator.

  The second half states the same quantities tile by tile over the zero-padded arrays (123 tiles of 8192
  rows, the padded rows labelled 100), as a grid of accumulating products with one-hot matrices computes them.
-/
import Idealize.ShloMosaic.PureOps.Ideal
import Idealize.ShloMosaic.Lib.ValueIdx

noncomputable section

open scoped BigOperators

namespace Cert.Proto

open Idealize.ShloMosaic Idealize.ShloMosaic.ValueIdx

/-- The features' shape. -/
abbrev SX : Shape := ⟨2, ![1000000, 128]⟩
/-- The labels' shape. -/
abbrev SLab : Shape := ⟨1, ![1000000]⟩
/-- The result's shape: one prototype row per class. -/
abbrev SOut : Shape := ⟨2, ![100, 128]⟩
/-- The padded features' shape: 123 tiles of 8192 rows. -/
abbrev SXp : Shape := ⟨2, ![1007616, 128]⟩
/-- The padded labels' shape. -/
abbrev SLp : Shape := ⟨1, ![1007616]⟩
/-- A class table padded to 128 classes. -/
abbrev SCC : Shape := ⟨2, ![128, 128]⟩

/-- The norm guard `ε`: the literal both programs carry. -/
def eps : EReal := Ideal.ofBits .f32 0x322BCC77#32

/-- The indicator of "label word `l` is class word `c`", as an extended real. -/
def hot (l c : BitVec 32) : EReal := if l = c then 1 else 0

/-- A row scaled to unit length: each entry over the larger of the row's Euclidean norm and `ε`. -/
def rowUnit (row : Fin 128 → EReal) (d : Fin 128) : EReal :=
  Ideal.div (row d) (max (Ideal.sqrt (∑ k : Fin 128, row k * row k)) eps)

/-- The weight of a row against a class's summed unit vectors `g` and count `n`. -/
def rowWeight (row : Fin 128 → EReal) (g : Fin 128 → EReal) (n : EReal) : EReal :=
  Ideal.div ((∑ k : Fin 128, rowUnit row k * g k) - (∑ k : Fin 128, rowUnit row k * rowUnit row k))
    (max (n - 1) 1 * max n 1)

section Whole
variable (x : SX.Idx → EReal) (lab : SLab.Idx → BitVec 32)

/-- Row `i` of the features. -/
def xrow (i : Fin 1000000) : Fin 128 → EReal := fun k => x (ix2 i k)
/-- How many rows carry the class word `c`. -/
def cnt (c : BitVec 32) : EReal := ∑ i : Fin 1000000, hot (lab (ix1 i)) c * 1
/-- The sum of the unit vectors of the rows labelled `c`. -/
def msum (c : BitVec 32) (d : Fin 128) : EReal := ∑ i : Fin 1000000, hot (lab (ix1 i)) c * rowUnit (xrow x i) d
/-- Row `i`'s weight within class `c`. -/
def wgt (c : BitVec 32) (i : Fin 1000000) : EReal := rowWeight (xrow x i) (msum x lab c) (cnt lab c)
/-- The weighted sum of the rows labelled `c`. -/
def psum (c : BitVec 32) (d : Fin 128) : EReal := ∑ i : Fin 1000000, hot (lab (ix1 i)) c * (wgt x lab c i * x (ix2 i d))
/-- THE RESULT: class `c`'s prototype, its weighted sum over the larger of its count and one. -/
def proto : SOut.Idx → EReal := fun j =>
  Ideal.div (psum x lab (BitVec.ofNat 32 (j 0).val) (j 1)) (max (cnt lab (BitVec.ofNat 32 (j 0).val)) 1)

end Whole

/-! ## The same, tile by tile over the padded arrays -/

/-- Row `r` of tile `t` in the padded arrays. -/
def tileRow (t : Fin 123) (r : Fin 8192) : Fin 1007616 := ⟨8192 * t.val + r.val, by have := t.isLt; have := r.isLt; omega⟩

/-- The features padded with zero rows. -/
def padX (x : SX.Idx → EReal) : SXp.Idx → EReal := fun i =>
  if h : (i 0).val < 1000000 then x (ix2 ⟨(i 0).val, h⟩ (i 1)) else 0
/-- The labels padded with the word 100, a class outside the 100 kept. -/
def padL (lab : SLab.Idx → BitVec 32) : SLp.Idx → BitVec 32 := fun i =>
  if h : (i 0).val < 1000000 then lab (ix1 ⟨(i 0).val, h⟩) else 100#32

section Tiles
variable (xp : SXp.Idx → EReal) (lp : SLp.Idx → BitVec 32)

/-- Row `i` of the padded features. -/
def xprow (i : Fin 1007616) : Fin 128 → EReal := fun k => xp (ix2 i k)

/-- The table of summed unit vectors, 128 class rows, accumulated tile by tile. -/
def tileM : SCC.Idx → EReal := fun j =>
  ∑ t : Fin 123, ∑ r : Fin 8192,
    hot (lp (ix1 (tileRow t r))) (BitVec.ofNat 32 (j 0).val) * rowUnit (xprow xp (tileRow t r)) (j 1)
/-- The table of counts (the count repeated along the second axis), accumulated tile by tile. -/
def tileC : SCC.Idx → EReal := fun j =>
  ∑ t : Fin 123, ∑ r : Fin 8192, hot (lp (ix1 (tileRow t r))) (BitVec.ofNat 32 (j 0).val) * 1

variable (M CN : SCC.Idx → EReal)
/-- A row's class vector looked up in the table `M` by a product with the row's one-hot vector. -/
def lookM (l : BitVec 32) (k : Fin 128) : EReal := ∑ c : Fin 128, hot l (BitVec.ofNat 32 c.val) * M (ix2 c k)
/-- A row's class count looked up in column 0 of the table `CN` the same way. -/
def lookC (l : BitVec 32) : EReal := ∑ c : Fin 128, hot l (BitVec.ofNat 32 c.val) * CN (ix2 c (0 : Fin 128))
/-- The table of weighted sums, accumulated tile by tile from the looked-up class data. -/
def tileP : SCC.Idx → EReal := fun j =>
  ∑ t : Fin 123, ∑ r : Fin 8192,
    hot (lp (ix1 (tileRow t r))) (BitVec.ofNat 32 (j 0).val) *
      (rowWeight (xprow xp (tileRow t r)) (lookM M (lp (ix1 (tileRow t r)))) (lookC CN (lp (ix1 (tileRow t r))))
        * xp (ix2 (tileRow t r) (j 1)))

end Tiles

/-- THE KERNEL'S RESULT from its three tables: rows 0 … 99 of the weighted sums over the larger of the count and one. -/
def finish (P CN : SCC.Idx → EReal) : SOut.Idx → EReal := fun j =>
  Ideal.div (P (ix2 (⟨(j 0).val, Nat.lt_trans (idx2_lt0 j) (by decide)⟩ : Fin 128) (j 1)))
    (max (CN (ix2 (⟨(j 0).val, Nat.lt_trans (idx2_lt0 j) (by decide)⟩ : Fin 128) (0 : Fin 128))) 1)

end Cert.Proto

end
-- ==== Proof.PureSums.lean ====
import proofs.«416101_j13142599925900_1_alg».proof.Proof.Spec
import Idealize.ShloMosaic.Lib.IdealHost

noncomputable section

open scoped BigOperators

namespace Cert.Proto

open Idealize.ShloMosaic Idealize.ShloMosaic.ValueIdx

/-! ## The indicator -/

theorem hot_self (c : BitVec 32) : hot c c = 1 := if_pos rfl

theorem hot_ne {l c : BitVec 32} (h : l ≠ c) : hot l c = 0 := if_neg h

/-- Below `2 ^ 32` distinct naturals give distinct 32-bit words. -/
theorem ofNat_ne {a b : Nat} (ha : a < 4294967296) (hb : b < 4294967296) (h : a ≠ b) :
    BitVec.ofNat 32 a ≠ BitVec.ofNat 32 b := by
  intro e
  have e' := congrArg BitVec.toNat e
  rw [BitVec.toNat_ofNat, BitVec.toNat_ofNat, Nat.mod_eq_of_lt ha, Nat.mod_eq_of_lt hb] at e'
  exact h e'

/-- The padding label `100` is none of the hundred class words. -/
theorem pad_word_ne {c : Nat} (hc : c < 100) : (100#32 : BitVec 32) ≠ BitVec.ofNat 32 c :=
  ofNat_ne (a := 100) (b := c) (by norm_num) (by omega) (by omega)

/-! ## Re-indexing: tiles of rows are all the padded rows, and the padded rows beyond the data add nothing -/

/-- `(t, r) ↦ 8192 t + r` runs through every padded row once. -/
theorem tileRow_bijective : Function.Bijective (fun p : Fin 123 × Fin 8192 => tileRow p.1 p.2) := by
  refine (Fintype.bijective_iff_injective_and_card _).2 ⟨?_, ?_⟩
  · rintro ⟨t, r⟩ ⟨t', r'⟩ h
    have hv : 8192 * t.val + r.val = 8192 * t'.val + r'.val := congrArg Fin.val h
    have ht := t.isLt; have hr := r.isLt; have ht' := t'.isLt; have hr' := r'.isLt
    have h1 : t.val = t'.val := by omega
    have h2 : r.val = r'.val := by omega
    exact Prod.ext (Fin.ext h1) (Fin.ext h2)
  · rw [Fintype.card_prod, Fintype.card_fin, Fintype.card_fin, Fintype.card_fin]

/-- A sum tile by tile is the sum over all padded rows. -/
theorem sum_tiles (g : Fin 1007616 → EReal) :
    ∑ t : Fin 123, ∑ r : Fin 8192, g (tileRow t r) = ∑ i : Fin 1007616, g i := by
  rw [← Fintype.sum_prod_type' (fun (t : Fin 123) (r : Fin 8192) => g (tileRow t r))]
  exact Fintype.sum_bijective _ tileRow_bijective _ _ (fun _ => rfl)

/-- The data rows among the padded rows. -/
def dataRow (i : Fin 1000000) : Fin 1007616 := ⟨i.val, by have := i.isLt; omega⟩

theorem dataRow_injective : Function.Injective dataRow := by
  intro a b h
  have hv : (dataRow a).val = (dataRow b).val := congrArg Fin.val h
  exact Fin.ext hv

theorem padL_data (lab : SLab.Idx → BitVec 32) (i : Fin 1000000) : padL lab (ix1 (dataRow i)) = lab (ix1 i) := by
  show (if h : i.val < 1000000 then lab (ix1 ⟨i.val, h⟩) else 100#32) = lab (ix1 i)
  rw [dif_pos i.isLt]

theorem padL_beyond (lab : SLab.Idx → BitVec 32) (i : Fin 1007616) (h : ¬ i.val < 1000000) :
    padL lab (ix1 i) = 100#32 := by
  show (if h : i.val < 1000000 then lab (ix1 ⟨i.val, h⟩) else 100#32) = 100#32
  rw [dif_neg h]

theorem padX_data (x : SX.Idx → EReal) (i : Fin 1000000) (k : Fin 128) :
    padX x (ix2 (dataRow i) k) = x (ix2 i k) := by
  show (if h : i.val < 1000000 then x (ix2 ⟨i.val, h⟩ k) else 0) = x (ix2 i k)
  rw [dif_pos i.isLt]

theorem xprow_data (x : SX.Idx → EReal) (i : Fin 1000000) : xprow (padX x) (dataRow i) = xrow x i := by
  funext k
  exact padX_data x i k

/-- A class's sum over the padded rows is its sum over the data rows: a padded row beyond the data carries the
    label `100`, so its indicator is `0`; and on a data row the two terms need agree only where the row has the class. -/
theorem sum_pad (lab : SLab.Idx → BitVec 32) (cw : BitVec 32) (hcw : (100#32 : BitVec 32) ≠ cw)
    (F : Fin 1007616 → EReal) (G : Fin 1000000 → EReal)
    (hFG : ∀ i : Fin 1000000, lab (ix1 i) = cw → F (dataRow i) = G i) :
    ∑ i : Fin 1007616, hot (padL lab (ix1 i)) cw * F i = ∑ i : Fin 1000000, hot (lab (ix1 i)) cw * G i := by
  symm
  refine Fintype.sum_of_injective dataRow dataRow_injective _ _ ?_ ?_
  · intro i hi
    have hge : ¬ i.val < 1000000 := by
      intro hlt
      exact hi ⟨⟨i.val, hlt⟩, Fin.ext rfl⟩
    rw [padL_beyond lab i hge, hot_ne hcw, zero_mul]
  · intro i
    rw [padL_data lab i]
    by_cases hl : lab (ix1 i) = cw
    · rw [hFG i hl]
    · rw [hot_ne hl, zero_mul, zero_mul]

/-! ## The two tables of the first pass -/

/-- Row `c < 100` of the count table holds class `c`'s count (in every column). -/
theorem tileC_eq (lab : SLab.Idx → BitVec 32) (c : Fin 128) (hc : c.val < 100) (d : Fin 128) :
    tileC (padL lab) (ix2 c d) = cnt lab (BitVec.ofNat 32 c.val) := by
  show ∑ t : Fin 123, ∑ r : Fin 8192, hot (padL lab (ix1 (tileRow t r))) (BitVec.ofNat 32 c.val) * 1
      = ∑ i : Fin 1000000, hot (lab (ix1 i)) (BitVec.ofNat 32 c.val) * 1
  rw [sum_tiles (fun i => hot (padL lab (ix1 i)) (BitVec.ofNat 32 c.val) * 1)]
  exact sum_pad lab _ (pad_word_ne hc) (fun _ => 1) (fun _ => 1) (fun _ _ => rfl)

/-- Row `c < 100` of the table of summed unit vectors holds class `c`'s sum. -/
theorem tileM_eq (x : SX.Idx → EReal) (lab : SLab.Idx → BitVec 32) (c : Fin 128) (hc : c.val < 100) (d : Fin 128) :
    tileM (padX x) (padL lab) (ix2 c d) = msum x lab (BitVec.ofNat 32 c.val) d := by
  show ∑ t : Fin 123, ∑ r : Fin 8192,
        hot (padL lab (ix1 (tileRow t r))) (BitVec.ofNat 32 c.val) * rowUnit (xprow (padX x) (tileRow t r)) d
      = ∑ i : Fin 1000000, hot (lab (ix1 i)) (BitVec.ofNat 32 c.val) * rowUnit (xrow x i) d
  rw [sum_tiles (fun i => hot (padL lab (ix1 i)) (BitVec.ofNat 32 c.val) * rowUnit (xprow (padX x) i) d)]
  refine sum_pad lab _ (pad_word_ne hc) (fun i => rowUnit (xprow (padX x) i) d) (fun i => rowUnit (xrow x i) d) ?_
  intro i _
  show rowUnit (xprow (padX x) (dataRow i)) d = rowUnit (xrow x i) d
  rw [xprow_data x i]

/-! ## The look-ups of the second pass -/

/-- A product with the one-hot vector of class word `c` picks row `c` of a table. -/
theorem lookM_eq (M : SCC.Idx → EReal) (c : Fin 128) (k : Fin 128) :
    lookM M (BitVec.ofNat 32 c.val) k = M (ix2 c k) := by
  show ∑ c' : Fin 128, hot (BitVec.ofNat 32 c.val) (BitVec.ofNat 32 c'.val) * M (ix2 c' k) = M (ix2 c k)
  rw [Finset.sum_eq_single c]
  · rw [hot_self, one_mul]
  · intro c' _ hne
    have hc := c.isLt; have hc' := c'.isLt
    have hv : c.val ≠ c'.val := fun e => hne (Fin.ext e.symm)
    rw [hot_ne (ofNat_ne (by omega) (by omega) hv), zero_mul]
  · intro h
    exact absurd (Finset.mem_univ c) h

theorem lookC_eq (CN : SCC.Idx → EReal) (c : Fin 128) :
    lookC CN (BitVec.ofNat 32 c.val) = CN (ix2 c (0 : Fin 128)) := by
  show ∑ c' : Fin 128, hot (BitVec.ofNat 32 c.val) (BitVec.ofNat 32 c'.val) * CN (ix2 c' (0 : Fin 128))
      = CN (ix2 c (0 : Fin 128))
  rw [Finset.sum_eq_single c]
  · rw [hot_self, one_mul]
  · intro c' _ hne
    have hc := c.isLt; have hc' := c'.isLt
    have hv : c.val ≠ c'.val := fun e => hne (Fin.ext e.symm)
    rw [hot_ne (ofNat_ne (by omega) (by omega) hv), zero_mul]
  · intro h
    exact absurd (Finset.mem_univ c) h

/-! ## The table of the second pass -/

/-- Row `c < 100` of the table of weighted sums holds class `c`'s weighted sum: a row of the class looks up exactly
    the class's summed unit vectors and count, so its weight is the one the whole computation gives it. -/
theorem tileP_eq (x : SX.Idx → EReal) (lab : SLab.Idx → BitVec 32) (c : Fin 128) (hc : c.val < 100) (d : Fin 128) :
    tileP (padX x) (padL lab) (tileM (padX x) (padL lab)) (tileC (padL lab)) (ix2 c d)
      = psum x lab (BitVec.ofNat 32 c.val) d := by
  show ∑ t : Fin 123, ∑ r : Fin 8192,
        hot (padL lab (ix1 (tileRow t r))) (BitVec.ofNat 32 c.val) *
          (rowWeight (xprow (padX x) (tileRow t r))
              (lookM (tileM (padX x) (padL lab)) (padL lab (ix1 (tileRow t r))))
              (lookC (tileC (padL lab)) (padL lab (ix1 (tileRow t r))))
            * padX x (ix2 (tileRow t r) d))
      = ∑ i : Fin 1000000, hot (lab (ix1 i)) (BitVec.ofNat 32 c.val) * (wgt x lab (BitVec.ofNat 32 c.val) i * x (ix2 i d))
  rw [sum_tiles (fun i => hot (padL lab (ix1 i)) (BitVec.ofNat 32 c.val) *
          (rowWeight (xprow (padX x) i)
              (lookM (tileM (padX x) (padL lab)) (padL lab (ix1 i)))
              (lookC (tileC (padL lab)) (padL lab (ix1 i)))
            * padX x (ix2 i d)))]
  refine sum_pad lab _ (pad_word_ne hc)
    (fun i => rowWeight (xprow (padX x) i)
              (lookM (tileM (padX x) (padL lab)) (padL lab (ix1 i)))
              (lookC (tileC (padL lab)) (padL lab (ix1 i)))
            * padX x (ix2 i d))
    (fun i => wgt x lab (BitVec.ofNat 32 c.val) i * x (ix2 i d)) ?_
  intro i hl
  show rowWeight (xprow (padX x) (dataRow i))
        (lookM (tileM (padX x) (padL lab)) (padL lab (ix1 (dataRow i))))
        (lookC (tileC (padL lab)) (padL lab (ix1 (dataRow i))))
      * padX x (ix2 (dataRow i) d)
    = rowWeight (xrow x i) (msum x lab (BitVec.ofNat 32 c.val)) (cnt lab (BitVec.ofNat 32 c.val)) * x (ix2 i d)
  have hM : lookM (tileM (padX x) (padL lab)) (BitVec.ofNat 32 c.val) = msum x lab (BitVec.ofNat 32 c.val) := by
    funext k
    rw [lookM_eq, tileM_eq x lab c hc k]
  rw [padL_data lab i, hl, xprow_data x i, padX_data x i d, hM, lookC_eq, tileC_eq lab c hc]

/-! ## The result -/

/-- THE TILED COMPUTATION IS THE WHOLE ONE: the three tables accumulated tile by tile over the padded arrays,
    finished by the division, give every class's prototype. -/
theorem finish_eq (x : SX.Idx → EReal) (lab : SLab.Idx → BitVec 32) :
    finish (tileP (padX x) (padL lab) (tileM (padX x) (padL lab)) (tileC (padL lab))) (tileC (padL lab))
      = proto x lab := by
  funext j
  have hj : (j 0).val < 100 := idx2_lt0 j
  show Ideal.div
        (tileP (padX x) (padL lab) (tileM (padX x) (padL lab)) (tileC (padL lab))
          (ix2 (⟨(j 0).val, Nat.lt_trans (idx2_lt0 j) (by decide)⟩ : Fin 128) (j 1)))
        (max (tileC (padL lab) (ix2 (⟨(j 0).val, Nat.lt_trans (idx2_lt0 j) (by decide)⟩ : Fin 128) (0 : Fin 128))) 1)
      = Ideal.div (psum x lab (BitVec.ofNat 32 (j 0).val) (j 1)) (max (cnt lab (BitVec.ofNat 32 (j 0).val)) 1)
  rw [tileP_eq x lab ⟨(j 0).val, Nat.lt_trans (idx2_lt0 j) (by decide)⟩ hj (j 1),
    tileC_eq lab ⟨(j 0).val, Nat.lt_trans (idx2_lt0 j) (by decide)⟩ hj (0 : Fin 128)]

end Cert.Proto

end
-- ==== Proof.KPay0.lean ====
import proofs.«416101_j13142599925900_1_alg».proof.Proof.Gen.KernelIdeal.Skeleton
import proofs.«416101_j13142599925900_1_alg».proof.Proof.Spec
import Idealize.ShloMosaic.PureOps.Ideal.Laws
import Idealize.ShloMosaic.Lib.Pipeline.Value
import Idealize.ShloMosaic.Lib.ValueLayout
import Idealize.ShloMosaic.Lib.IdealHost

set_option maxRecDepth 16384

noncomputable section

open scoped BigOperators

namespace Cert.KernelIdeal.Pay0

open Idealize.ShloMosaic Idealize.ShloMosaic.ValueIdx
open Cert.KernelIdeal Cert.KernelIdeal.Gen Cert.Proto

/-! ## Two column layouts read at an index -/

/-- A vector `[a]` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The reset values -/

/-- The first table's reset value is zero everywhere. -/
theorem pay1_eq : (k0_pay1 (F := Ideal)) = fun _ => (0 : EReal) := by
  funext i
  show Ideal.ofBits .f32 0x00000000#32 = 0
  exact Ideal.ofBits_zero_f32

/-- The second table's reset value is zero everywhere. -/
theorem pay2_eq : (k0_pay2 (F := Ideal)) = fun _ => (0 : EReal) := by
  funext i
  show Ideal.ofBits .f32 0x00000000#32 = 0
  exact Ideal.ofBits_zero_f32

/-! ## The one-hot matrix -/

/-- A compared pair of words, widened and read as a signed integer, is the indicator of their equality. -/
theorem hot_word (l w : BitVec 32) :
    (((((IntOp.cmpi .eq l w).setWidth 32).toInt : ℤ) : ℝ) : EReal) = hot l w := by
  unfold hot IntOp.cmpi
  by_cases h : l = w
  · subst h; simp
  · have hb : (l == w) = false := beq_eq_false_iff_ne.mpr h
    simp [h, hb]

/-- THE ONE-HOT ENTRY: row `r`, class column `c` of the matrix is the indicator "row `r`'s label is `c`". -/
theorem pay3_apply (x1 : Vec Ideal S8192 .i32) (r : Fin 8192) (c : Fin 128) :
    k0_pay3 (F := Ideal) x1 (ix2 r c) = hot (x1 (ix1 r)) (BitVec.ofNat 32 c.val) := by
  unfold k0_pay3
  refine Eq.trans ?_ (hot_word (x1 (ix1 r)) (BitVec.ofNat 32 c.val))
  show (((((IntOp.cmpi .eq
      (broadcastTo S8192x128 (shapeCast S8192x1 (shapeCast S8192 x1 shapeCasts_S8192_S8192) shapeCasts_S8192_S8192x1)
        broadcasts_S8192x1_S8192x128 (ix2 r c))
      (iota .tc S8192x128 32 [1] iota_S8192x128_d1_w32 (ix2 r c))).setWidth 32).toInt : ℤ) : ℝ) : EReal) = _
  rw [broadcastTo_a1_ab_apply, shapeCast_a_a1_apply, shapeCast_self, iota_single_apply]

/-! ## The rows scaled to unit length -/

/-- A lane sum of a `[8192, 128]` vector read at row `r`: the sum of the row's 128 entries. -/
theorem laneSum_apply (src : FVec Ideal S8192x128 .f32) (h : S8192x128.Reduces [1] S8192) (hφ : FKind.Formats .f32)
    (hacc : (0x00000000#32 : BitVec 32) = FKind.add.neutral .f32 hφ) (r : Fin 8192) :
    multiReduction (F := Ideal) .add [1] S8192 src 0x00000000#32 h hφ hacc (ix1 r) = ∑ k : Fin 128, src (ix2 r k) := by
  refine (Ideal.multiReduction_add_single src 0x00000000#32 h hφ hacc (ix1 r)).trans ?_
  refine Finset.sum_congr rfl fun k _ => congrArg src ?_
  exact Shape.idx_ext₂ rfl rfl

/-- The product's second operand as the body builds it: each row over the larger of its norm and the guard. -/
def unitRows (x0 : FVec Ideal S8192x128 .f32) : FVec Ideal S8192x128 .bf16 :=
  truncf .bf16 (divf (shapeCast S8192x128 x0 shapeCasts_S8192x128_S8192x128)
    (broadcastTo S8192x128
      (maximumf
        (sqrt (shapeCast S8192x1
          (multiReduction .add [1] S8192
            (mulf (shapeCast S8192x128 x0 shapeCasts_S8192x128_S8192x128)
              (shapeCast S8192x128 x0 shapeCasts_S8192x128_S8192x128))
            0x00000000#32 reduces_S8192x128_S8192 (.inl rfl) rfl)
          shapeCasts_S8192_S8192x1))
        (broadcast S8192x1 (Scalar.ofBits .f32 0x322BCC77#32)))
      broadcasts_S8192x1_S8192x128)) bitsLt_bf16_f32

/-- THE UNIT-ROW ENTRY: row `r`, column `d` is the row's entry over the larger of the row's norm and the guard. -/
theorem unit_apply (x0 : FVec Ideal S8192x128 .f32) (r : Fin 8192) (d : Fin 128) :
    unitRows x0 (ix2 r d) = rowUnit (fun k => x0 (ix2 r k)) d := by
  have e4 : shapeCast S8192x128 x0 shapeCasts_S8192x128_S8192x128 = x0 := shapeCast_self _ _
  have eS : multiReduction (F := Ideal) .add [1] S8192 (mulf x0 x0) 0x00000000#32 reduces_S8192x128_S8192 (.inl rfl) rfl (ix1 r)
      = ∑ k : Fin 128, x0 (ix2 r k) * x0 (ix2 r k) := laneSum_apply _ _ _ _ r
  unfold unitRows
  rw [e4]
  show Ideal.div (x0 (ix2 r d)) (broadcastTo S8192x128 _ broadcasts_S8192x1_S8192x128 (ix2 r d)) = _
  rw [broadcastTo_a1_ab_apply]
  show Ideal.div (x0 (ix2 r d))
      (max (Ideal.sqrt (shapeCast S8192x1 _ shapeCasts_S8192_S8192x1 (ix2 r (0 : Fin 1)))) (Ideal.ofBits .f32 0x322BCC77#32)) = _
  rw [shapeCast_a_a1_apply, eS]
  rfl

/-! ## The product with the one-hot matrix, re-indexed by the tile's rows -/

/-- On the first operand's contracted axis the operand index is the contraction position … -/
theorem lhs_axis0 (j : S128x128.Idx) (k : dot_S8192x128_S8192x128_S128x128_0_0_1_1_n_n.contr.Idx) :
    (dot_S8192x128_S8192x128_S128x128_0_0_1_1_n_n.lhsIdx j k (0 : Fin S8192x128.rank)).val = (k ⟨0, Nat.one_pos⟩).val :=
  DotDims.lhsIdx_val_of_single dot_S8192x128_S8192x128_S128x128_0_0_1_1_n_n rfl j k

/-- … and on its kept axis the result's first coordinate. -/
theorem lhs_axis1 (j : S128x128.Idx) (k : dot_S8192x128_S8192x128_S128x128_0_0_1_1_n_n.contr.Idx) :
    (dot_S8192x128_S8192x128_S128x128_0_0_1_1_n_n.lhsIdx j k (1 : Fin S8192x128.rank)).val = (j 0).val := by
  unfold DotDims.lhsIdx
  rw [dif_neg (show ¬ (1 : Fin S8192x128.rank) ∈ dot_S8192x128_S8192x128_S128x128_0_0_1_1_n_n.lhsBatch by decide),
    dif_pos (show (1 : Fin S8192x128.rank) ∈ dot_S8192x128_S8192x128_S128x128_0_0_1_1_n_n.lhsNonContracting by decide)]
  rfl

/-- On the second operand's contracted axis the operand index is the contraction position … -/
theorem rhs_axis0 (j : S128x128.Idx) (k : dot_S8192x128_S8192x128_S128x128_0_0_1_1_n_n.contr.Idx) :
    (dot_S8192x128_S8192x128_S128x128_0_0_1_1_n_n.rhsIdx j k (0 : Fin S8192x128.rank)).val = (k ⟨0, Nat.one_pos⟩).val :=
  DotDims.rhsIdx_val_of_single dot_S8192x128_S8192x128_S128x128_0_0_1_1_n_n rfl j k

/-- … and on its kept axis the result's second coordinate. -/
theorem rhs_axis1 (j : S128x128.Idx) (k : dot_S8192x128_S8192x128_S128x128_0_0_1_1_n_n.contr.Idx) :
    (dot_S8192x128_S8192x128_S128x128_0_0_1_1_n_n.rhsIdx j k (1 : Fin S8192x128.rank)).val = (j 1).val := by
  unfold DotDims.rhsIdx
  rw [dif_neg (show ¬ (1 : Fin S8192x128.rank) ∈ dot_S8192x128_S8192x128_S128x128_0_0_1_1_n_n.rhsBatch by decide),
    dif_pos (show (1 : Fin S8192x128.rank) ∈ dot_S8192x128_S8192x128_S128x128_0_0_1_1_n_n.rhsNonContracting by decide)]
  rfl

/-- THE CONTRACTION OVER THE TILE'S ROWS: entry `(c, d)` of the product sums, over the 8192 rows `r`, the first
    operand at `(r, c)` times the second at `(r, d)`. -/
theorem contract_rows (lhs rhs : FVec Ideal S8192x128 .bf16) (c d : Fin 128) :
    ∑ k : dot_S8192x128_S8192x128_S128x128_0_0_1_1_n_n.contr.Idx,
        lhs (dot_S8192x128_S8192x128_S128x128_0_0_1_1_n_n.lhsIdx (ix2 c d) k)
          * rhs (dot_S8192x128_S8192x128_S128x128_0_0_1_1_n_n.rhsIdx (ix2 c d) k)
      = ∑ r : Fin 8192, lhs (ix2 r c) * rhs (ix2 r d) := by
  rw [← Equiv.sum_comp (contrEquiv1 dot_S8192x128_S8192x128_S128x128_0_0_1_1_n_n 8192 rfl rfl).symm]
  refine Finset.sum_congr rfl fun r _ => ?_
  have hl : dot_S8192x128_S8192x128_S128x128_0_0_1_1_n_n.lhsIdx (ix2 c d)
      ((contrEquiv1 dot_S8192x128_S8192x128_S128x128_0_0_1_1_n_n 8192 rfl rfl).symm r) = ix2 r c :=
    Shape.idx_ext₂ ((lhs_axis0 _ _).trans (contrEquiv1_symm_val _ 8192 rfl rfl r)) (lhs_axis1 _ _)
  have hr : dot_S8192x128_S8192x128_S128x128_0_0_1_1_n_n.rhsIdx (ix2 c d)
      ((contrEquiv1 dot_S8192x128_S8192x128_S128x128_0_0_1_1_n_n 8192 rfl rfl).symm r) = ix2 r d :=
    Shape.idx_ext₂ ((rhs_axis0 _ _).trans (contrEquiv1_symm_val _ 8192 rfl rfl r)) (rhs_axis1 _ _)
  rw [hl, hr]

/-! ## One tile's step of the two tables -/

/-- The first table's new value: the table plus the product of the one-hot matrix with the unit rows. -/
theorem pay4_eq (x0 : FVec Ideal S8192x128 .f32) (x1 : Vec Ideal S8192 .i32) (acc : FVec Ideal S128x128 .f32) :
    k0_pay4 (F := Ideal) x0 x1 acc
      = addf (shapeCast S128x128 acc shapeCasts_S128x128_S128x128)
          (FloatOps.matmul dot_S8192x128_S8192x128_S128x128_0_0_1_1_n_n none (k0_pay3 (F := Ideal) x1) (unitRows x0)
            (constant (F := Ideal) S128x128 .f32 0x00000000#32)) := rfl

/-- The second table's new value: the table plus the product of the one-hot matrix with the all-ones matrix. -/
theorem pay5_eq (x1 : Vec Ideal S8192 .i32) (acc : FVec Ideal S128x128 .f32) :
    k0_pay5 (F := Ideal) x1 acc
      = addf (shapeCast S128x128 acc shapeCasts_S128x128_S128x128)
          (FloatOps.matmul dot_S8192x128_S8192x128_S128x128_0_0_1_1_n_n none (k0_pay3 (F := Ideal) x1)
            (broadcast S8192x128 (Scalar.ofBits (F := Ideal) .bf16 0x3F80#16))
            (constant (F := Ideal) S128x128 .f32 0x00000000#32)) := rfl

/-- ONE TILE'S STEP of the table of summed unit vectors: entry (c, d) grows by the sum over the tile's rows
    of the indicator "the row's label is c" times the row's unit vector at d. -/
theorem pay4_apply (x0 : Vec Ideal S8192x128 .f32) (x1 : Vec Ideal S8192 .i32) (acc : Vec Ideal S128x128 .f32)
    (j : S128x128.Idx) :
    k0_pay4 (F := Ideal) x0 x1 acc j
      = acc j + ∑ r : Fin 8192, hot (x1 (ix1 r)) (BitVec.ofNat 32 (j 0).val) * rowUnit (fun k => x0 (ix2 r k)) (j 1) := by
  obtain ⟨c, d, rfl⟩ : ∃ (c : Fin 128) (d : Fin 128), j = ix2 c d := ⟨j 0, j 1, eq_ix2 j⟩
  rw [pay4_eq, addf_apply, shapeCast_self, Ideal.matmul_constant_zero_apply, contract_rows]
  refine congrArg (acc (ix2 c d) + ·) (Finset.sum_congr rfl fun r _ => ?_)
  exact congrArg₂ (· * ·) (pay3_apply x1 r c) (unit_apply x0 r d)

/-- ONE TILE'S STEP of the table of counts: entry (c, d) grows by the number of the tile's rows labelled c. -/
theorem pay5_apply (x1 : Vec Ideal S8192 .i32) (acc : Vec Ideal S128x128 .f32) (j : S128x128.Idx) :
    k0_pay5 (F := Ideal) x1 acc j
      = acc j + ∑ r : Fin 8192, hot (x1 (ix1 r)) (BitVec.ofNat 32 (j 0).val) * 1 := by
  obtain ⟨c, d, rfl⟩ : ∃ (c : Fin 128) (d : Fin 128), j = ix2 c d := ⟨j 0, j 1, eq_ix2 j⟩
  rw [pay5_eq, addf_apply, shapeCast_self, Ideal.matmul_constant_zero_apply, contract_rows]
  refine congrArg (acc (ix2 c d) + ·) (Finset.sum_congr rfl fun r _ => ?_)
  exact congrArg₂ (· * ·) (pay3_apply x1 r c) Ideal.ofBits_one_bf16

end Cert.KernelIdeal.Pay0

end
-- ==== Proof.KLast.lean ====
import proofs.«416101_j13142599925900_1_alg».proof.Proof.Gen.KernelIdeal.Frame
import proofs.«416101_j13142599925900_1_alg».proof.Proof.Spec
import Idealize.ShloMosaic.Lib.Pipeline.Value

set_option maxRecDepth 16384

noncomputable section

open scoped BigOperators

namespace Cert.KernelIdeal.Last

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Proto

variable {F : FTy → Type} [FloatOps F]
variable (V : (c : Dev nD) → (b : Ref sig .tc) → Buf (Elt F) ((c : Thread nD τ).loc b))

/-! Each of the three output windows has the constant block index (0, 0) and a block that is the whole [128, 128]
    array, so the pipeline writes it back once, at the last grid point 122; that one write-back replaces the whole
    array by the window's buffer. -/

/-! ## First launch, window 2: the table of summed unit vectors -/

/-- The block of this window is the whole array: an index of the block, placed in the array, is itself. -/
theorem emb0_2 (t : Fin cfg0.N) (j : ((cfg0.win 2).xblock (cfg0.grid.coords t)).Idx) :
    ((cfg0.win 2).blk t).view.emb j = (cfg0.win 2).xinj (cfg0.grid.coords t) j := by
  funext a
  apply Fin.ext
  match a with
  | ⟨0, _⟩ => show 0 * 128 + 1 * (j 0).val = (j 0).val; omega
  | ⟨1, _⟩ => show 0 * 128 + 1 * (j 1).val = (j 1).val; omega

/-- So contents of the whole array, read through the block, are themselves. -/
theorem read0_2 (t : Fin cfg0.N) (X : Vec F S128x128 .f32) :
    (cfg0.win 2).cut (cfg0.grid.coords t) X = ((cfg0.win 2).blk t).view.read (Elt F) X := by
  funext j
  rw [View.read_apply, emb0_2]
  rfl

/-- Every index of the array lies in the block. -/
theorem mem0_2 (t : Fin cfg0.N) (i : S128x128.Idx) : i ∈ ((cfg0.win 2).blk t).view.set := by
  show i ∈ ((View.whole main_v2_0).slice (win0_2.rect t)).set
  rw [View.set_slice_whole, Rect.mem_set_unit]
  intro a
  match a with
  | ⟨0, _⟩ =>
    have h : (i 0).val < 128 := (i 0).isLt
    show 0 * 128 ≤ (i 0).val ∧ (i 0).val < 0 * 128 + 128
    omega
  | ⟨1, _⟩ =>
    have h : (i 1).val < 128 := (i 1).isLt
    show 0 * 128 ≤ (i 1).val ∧ (i 1).val < 0 * 128 + 128
    omega

/-! ## First launch, window 3: the table of counts -/

/-- The block of this window is the whole array: an index of the block, placed in the array, is itself. -/
theorem emb0_3 (t : Fin cfg0.N) (j : ((cfg0.win 3).xblock (cfg0.grid.coords t)).Idx) :
    ((cfg0.win 3).blk t).view.emb j = (cfg0.win 3).xinj (cfg0.grid.coords t) j := by
  funext a
  apply Fin.ext
  match a with
  | ⟨0, _⟩ => show 0 * 128 + 1 * (j 0).val = (j 0).val; omega
  | ⟨1, _⟩ => show 0 * 128 + 1 * (j 1).val = (j 1).val; omega

/-- So contents of the whole array, read through the block, are themselves. -/
theorem read0_3 (t : Fin cfg0.N) (X : Vec F S128x128 .f32) :
    (cfg0.win 3).cut (cfg0.grid.coords t) X = ((cfg0.win 3).blk t).view.read (Elt F) X := by
  funext j
  rw [View.read_apply, emb0_3]
  rfl

/-- Every index of the array lies in the block. -/
theorem mem0_3 (t : Fin cfg0.N) (i : S128x128.Idx) : i ∈ ((cfg0.win 3).blk t).view.set := by
  show i ∈ ((View.whole main_v2_1).slice (win0_3.rect t)).set
  rw [View.set_slice_whole, Rect.mem_set_unit]
  intro a
  match a with
  | ⟨0, _⟩ =>
    have h : (i 0).val < 128 := (i 0).isLt
    show 0 * 128 ≤ (i 0).val ∧ (i 0).val < 0 * 128 + 128
    omega
  | ⟨1, _⟩ =>
    have h : (i 1).val < 128 := (i 1).isLt
    show 0 * 128 ≤ (i 1).val ∧ (i 1).val < 0 * 128 + 128
    omega

/-! ## Second launch, window 4: the table of weighted sums -/

/-- The block of this window is the whole array: an index of the block, placed in the array, is itself. -/
theorem emb1_4 (t : Fin cfg1.N) (j : ((cfg1.win 4).xblock (cfg1.grid.coords t)).Idx) :
    ((cfg1.win 4).blk t).view.emb j = (cfg1.win 4).xinj (cfg1.grid.coords t) j := by
  funext a
  apply Fin.ext
  match a with
  | ⟨0, _⟩ => show 0 * 128 + 1 * (j 0).val = (j 0).val; omega
  | ⟨1, _⟩ => show 0 * 128 + 1 * (j 1).val = (j 1).val; omega

/-- So contents of the whole array, read through the block, are themselves. -/
theorem read1_4 (t : Fin cfg1.N) (X : Vec F S128x128 .f32) :
    (cfg1.win 4).cut (cfg1.grid.coords t) X = ((cfg1.win 4).blk t).view.read (Elt F) X := by
  funext j
  rw [View.read_apply, emb1_4]
  rfl

/-- Every index of the array lies in the block. -/
theorem mem1_4 (t : Fin cfg1.N) (i : S128x128.Idx) : i ∈ ((cfg1.win 4).blk t).view.set := by
  show i ∈ ((View.whole main_v3).slice (win1_4.rect t)).set
  rw [View.set_slice_whole, Rect.mem_set_unit]
  intro a
  match a with
  | ⟨0, _⟩ =>
    have h : (i 0).val < 128 := (i 0).isLt
    show 0 * 128 ≤ (i 0).val ∧ (i 0).val < 0 * 128 + 128
    omega
  | ⟨1, _⟩ =>
    have h : (i 1).val < 128 := (i 1).isLt
    show 0 * 128 ≤ (i 1).val ∧ (i 1).val < 0 * 128 + 128
    omega

/-! ## The arrays after the whole grid -/

/-- The accumulated contents depend on the point only through its number. -/
theorem outsAt0_congr (c : Dev nD) (n k : Nat) (hn : n < cfg0.N) (hk : k < cfg0.N) (e : n = k) :
    outsAt0 V c n hn = outsAt0 V c k hk := by
  subst e
  rfl

/-- The accumulated contents depend on the point only through its number. -/
theorem outsAt1_congr (c : Dev nD) (n k : Nat) (hn : n < cfg1.N) (hk : k < cfg1.N) (e : n = k) :
    outsAt1 V c n hn = outsAt1 V c k hk := by
  subst e
  rfl

/-- The first launch's table of summed unit vectors is written back once, after the last grid point: the array
    ends at what that point left in the window's buffer. -/
theorem last0_2 (c : Dev nD) :
    (dat0 (F := F) V c).arrAt 2 cfg0.N = (outsAt0 V c 122 (by decide)).1 := by
  refine Dat.arrAt_eq_of_cover (dat0 (F := F) V c) 2 _ ?_ ?_
  · -- the one point that writes back is the last, and what it writes is the whole buffer
    intro t hf
    have h122 : t.val % 123 = 122 := (flush0_2 t).mp hf
    have hlt : t.val < 123 := lt_of_lt_of_eq t.isLt N_0
    have hv : t.val = 122 := by omega
    show (cfg0.win 2).cut (grid0.coords t) ((dat0 V c).after 2 t) = _
    rw [after0_2, outsAt0_congr V c t.val 122 t.isLt (by decide) hv]
    exact read0_2 t _
  · -- the last point's block covers every index
    intro i
    have hlast : (122 : Nat) < cfg0.N := by decide
    have hfl : (cfg0.win 2).flush ⟨122, hlast⟩ = true := (flush0_2 ⟨122, hlast⟩).mpr rfl
    exact ⟨⟨122, hlast⟩, hfl, mem0_2 ⟨122, hlast⟩ i⟩

/-- The same for the first launch's table of counts. -/
theorem last0_3 (c : Dev nD) :
    (dat0 (F := F) V c).arrAt 3 cfg0.N = (outsAt0 V c 122 (by decide)).2 := by
  refine Dat.arrAt_eq_of_cover (dat0 (F := F) V c) 3 _ ?_ ?_
  · -- the one point that writes back is the last, and what it writes is the whole buffer
    intro t hf
    have h122 : t.val % 123 = 122 := (flush0_3 t).mp hf
    have hlt : t.val < 123 := lt_of_lt_of_eq t.isLt N_0
    have hv : t.val = 122 := by omega
    show (cfg0.win 3).cut (grid0.coords t) ((dat0 V c).after 3 t) = _
    rw [after0_3, outsAt0_congr V c t.val 122 t.isLt (by decide) hv]
    exact read0_3 t _
  · -- the last point's block covers every index
    intro i
    have hlast : (122 : Nat) < cfg0.N := by decide
    have hfl : (cfg0.win 3).flush ⟨122, hlast⟩ = true := (flush0_3 ⟨122, hlast⟩).mpr rfl
    exact ⟨⟨122, hlast⟩, hfl, mem0_3 ⟨122, hlast⟩ i⟩

/-- The same for the second launch's table of weighted sums. -/
theorem last1_4 (c : Dev nD) :
    (dat1 (F := F) V c).arrAt 4 cfg1.N = outsAt1 V c 122 (by decide) := by
  refine Dat.arrAt_eq_of_cover (dat1 (F := F) V c) 4 _ ?_ ?_
  · -- the one point that writes back is the last, and what it writes is the whole buffer
    intro t hf
    have h122 : t.val % 123 = 122 := (flush1_4 t).mp hf
    have hlt : t.val < 123 := lt_of_lt_of_eq t.isLt N_1
    have hv : t.val = 122 := by omega
    show (cfg1.win 4).cut (grid1.coords t) ((dat1 V c).after 4 t) = _
    rw [after1_4, outsAt1_congr V c t.val 122 t.isLt (by decide) hv]
    exact read1_4 t _
  · -- the last point's block covers every index
    intro i
    have hlast : (122 : Nat) < cfg1.N := by decide
    have hfl : (cfg1.win 4).flush ⟨122, hlast⟩ = true := (flush1_4 ⟨122, hlast⟩).mpr rfl
    exact ⟨⟨122, hlast⟩, hfl, mem1_4 ⟨122, hlast⟩ i⟩

end Cert.KernelIdeal.Last

end
-- ==== Proof.KRegion0.lean ====
/-
  The first launch's two tables after its whole grid.

  The launch visits 123 tiles of 8192 rows of the zero-padded features `xp` and labels `lp`. At the first tile it
  resets two [128,128] tables to zero; at every tile it adds to entry (c, d) of the first table
      Σ_{r < 8192} [lp (8192·t + r) = c] · u (8192·t + r) d        (u a row scaled to unit length)
  and to entry (c, d) of the second table
      Σ_{r < 8192} [lp (8192·t + r) = c] · 1 .
  Both tables stay in place over the whole grid and are written out once, after the last tile.

  The proof has three parts. What one tile leaves in each table is read off its stores: the first tile leaves the
  step applied to the reset value, a later tile the step applied to what the tile before left. A tile's blocks are
  rows 8192·t … 8192·t + 8191 of the padded arrays. By induction on the tile, after tile n a table holds
  0 + Σ_{t ≤ n} (tile t's addend), and 0 + s = s; at n = 122 this is the tile-by-tile sum of the definitions.
-/
import proofs.«416101_j13142599925900_1_alg».proof.Proof.Gen.KernelIdeal.Frame
import proofs.«416101_j13142599925900_1_alg».proof.Proof.Spec
import proofs.«416101_j13142599925900_1_alg».proof.Proof.KPay0
import proofs.«416101_j13142599925900_1_alg».proof.Proof.KLast

set_option maxRecDepth 16384

noncomputable section

open scoped BigOperators

namespace Cert.KernelIdeal.Region0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Proto

/-! ## What each control case leaves in each table, as a function of the tile's blocks -/

section Pieces
variable {F : FTy → Type} [FloatOps F]

/-- The zero offsets of a rank-2 block, as a constant function. -/
theorem hz : (![0, 0] : Fin 2 → Nat) = fun _ => 0 := funext fun a => by fin_cases a <;> rfl
/-- The zero offset of a rank-1 block, as a constant function. -/
theorem hz1 : (![0] : Fin 1 → Nat) = fun _ => 0 := funext fun a => by fin_cases a; rfl

/-- A later tile adds its step to the first table's running contents `p2`. -/
theorem piece_B_2 (c : Dev nD) (i : grid0.Coords) (a1 : Memref sig .tc .vmem S8192x128 .f32) (h1 : a1.IsWhole)
    (a2 : Memref sig .tc .vmem S8192 .i32) (h2 : a2.IsWhole) (a3 : Memref sig .tc .vmem S128x128 .f32) (h3 : a3.IsWhole)
    (a4 : Memref sig .tc .vmem S128x128 .f32) (h4 : a4.IsWhole) (hc : ¬cond0_0 i)
    (x0 : Vec F S8192x128 .f32) (x1 : Vec F S8192 .i32) (p2 p3 : Vec F S128x128 .f32) :
    out0_B_2 c i a1 h1 a2 h2 a3 h3 a4 h4 hc x0 x1 p2 p3 = k0_pay4 x0 x1 p2 := by
  unfold out0_B_2
  rw [View.read_writes_eq_canon _ _ _ (cover0_B_2 c i a1 h1 a2 h2 a3 h3 a4 h4 hc x0 x1 p2 p3)]
  unfold kernelRun0_B
  dsimp only
  sl_unfold_words
  rw [View.canon_unit_zero (S := S128x128) hz]
  simp only [View.readAt_eq_ld, h1.read_unread, h2.read_unread, h3.read_unread,
    View.ld_unit_zero (S := S8192x128) hz, View.ld_unit_zero (S := S8192) hz1, View.ld_unit_zero (S := S128x128) hz]

/-- A later tile adds its step to the second table's running contents `p3`. -/
theorem piece_B_3 (c : Dev nD) (i : grid0.Coords) (a1 : Memref sig .tc .vmem S8192x128 .f32) (h1 : a1.IsWhole)
    (a2 : Memref sig .tc .vmem S8192 .i32) (h2 : a2.IsWhole) (a3 : Memref sig .tc .vmem S128x128 .f32) (h3 : a3.IsWhole)
    (a4 : Memref sig .tc .vmem S128x128 .f32) (h4 : a4.IsWhole) (hc : ¬cond0_0 i)
    (x0 : Vec F S8192x128 .f32) (x1 : Vec F S8192 .i32) (p2 p3 : Vec F S128x128 .f32) :
    out0_B_3 c i a1 h1 a2 h2 a3 h3 a4 h4 hc x0 x1 p2 p3 = k0_pay5 x1 p3 := by
  unfold out0_B_3
  rw [View.read_writes_eq_canon _ _ _ (cover0_B_3 c i a1 h1 a2 h2 a3 h3 a4 h4 hc x0 x1 p2 p3)]
  unfold kernelRun0_B
  dsimp only
  sl_unfold_words
  rw [View.canon_unit_zero (S := S128x128) hz]
  simp only [View.readAt_eq_ld, h1.read_unread, h2.read_unread, h4.read_unread,
    View.ld_unit_zero (S := S8192x128) hz, View.ld_unit_zero (S := S8192) hz1, View.ld_unit_zero (S := S128x128) hz]

/-- The first tile resets the first table and then adds its step to the reset value. -/
theorem piece_A_2 (c : Dev nD) (i : grid0.Coords) (a1 : Memref sig .tc .vmem S8192x128 .f32) (h1 : a1.IsWhole)
    (a2 : Memref sig .tc .vmem S8192 .i32) (h2 : a2.IsWhole) (a3 : Memref sig .tc .vmem S128x128 .f32) (h3 : a3.IsWhole)
    (a4 : Memref sig .tc .vmem S128x128 .f32) (h4 : a4.IsWhole) (hc : cond0_0 i)
    (x0 : Vec F S8192x128 .f32) (x1 : Vec F S8192 .i32) :
    out0_A_2 c i a1 h1 a2 h2 a3 h3 a4 h4 hc x0 x1 = k0_pay4 x0 x1 (k0_pay1 (F := F)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S128x128) hz]
  simp only [View.readAt_eq_ld, h1.read_unread, h2.read_unread, View.readCov_unit_zero (S := S128x128) _ hz,
    View.ld_unit_zero (S := S8192x128) hz, View.ld_unit_zero (S := S8192) hz1, View.ld_unit_zero (S := S128x128) hz]

/-- The first tile resets the second table and then adds its step to the reset value. -/
theorem piece_A_3 (c : Dev nD) (i : grid0.Coords) (a1 : Memref sig .tc .vmem S8192x128 .f32) (h1 : a1.IsWhole)
    (a2 : Memref sig .tc .vmem S8192 .i32) (h2 : a2.IsWhole) (a3 : Memref sig .tc .vmem S128x128 .f32) (h3 : a3.IsWhole)
    (a4 : Memref sig .tc .vmem S128x128 .f32) (h4 : a4.IsWhole) (hc : cond0_0 i)
    (x0 : Vec F S8192x128 .f32) (x1 : Vec F S8192 .i32) :
    out0_A_3 c i a1 h1 a2 h2 a3 h3 a4 h4 hc x0 x1 = k0_pay5 x1 (k0_pay2 (F := F)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S128x128) hz]
  simp only [View.readAt_eq_ld, h1.read_unread, h2.read_unread, View.readCov_unit_zero (S := S128x128) _ hz,
    View.ld_unit_zero (S := S8192x128) hz, View.ld_unit_zero (S := S8192) hz1, View.ld_unit_zero (S := S128x128) hz]

end Pieces

/-! ## The tile's blocks, read in the padded arrays -/

section Blocks
variable (V : (c : Dev nD) → (b : Ref sig .tc) → Buf (Elt Ideal) ((c : Thread nD τ).loc b))

/-- The padded features as the launch finds them. -/
abbrev xarr (c : Dev nD) : Vec Ideal S1007616x128 .f32 := V c main_v0
/-- The padded labels as the launch finds them. -/
abbrev larr (c : Dev nD) : Vec Ideal S1007616 .i32 := V c main_v1
/-- Tile `t`'s block of features. -/
abbrev xblk (c : Dev nD) (t : Fin cfg0.N) : Vec Ideal S8192x128 .f32 := iblk0 (F := Ideal) V c 0 t
/-- Tile `t`'s block of labels. -/
abbrev lblk (c : Dev nD) (t : Fin cfg0.N) : Vec Ideal S8192 .i32 := iblk0 (F := Ideal) V c 1 t

/-- The grid has 123 points. -/
theorem hN : cfg0.N = 123 := N_0

/-- Grid point `t` as a tile number. -/
abbrev tileOf (t : Fin cfg0.N) : Fin 123 := ⟨t.val, lt_of_lt_of_eq t.isLt hN⟩

/-- The feature window's block index at point `t` is `(t, 0)`. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- The label window's block index at point `t` is `t`. -/
theorem index1 : ∀ t : Fin cfg0.N, win0_1.index t (0 : Fin 1) = t.val :=
  (by decide +kernel : ∀ t : Fin grid0.N, win0_1.index t (0 : Fin 1) = t.val)

/-- Where the feature block's entry `(r, k)` sits in the padded array: row `8192·t + r`, the same column
    (a block's coordinate is its index times its size plus the coordinate inside it). -/
theorem emb0 (t : Fin cfg0.N) (r : Fin 8192) (k : Fin 128) :
    ((win0_0.rect t).emb (ix2 r k) : S1007616x128.Idx) = ix2 (tileRow (tileOf t) r) k := by
  funext a
  refine Fin.ext ?_
  have h := win0_0.rect_emb_val t (ix2 r k) a
  have hi := index0 t
  match a with
  | ⟨0, _⟩ =>
    refine h.trans ?_
    show win0_0.index t (0 : Fin 2) * 8192 + r.val = 8192 * t.val + r.val
    rw [hi.1, Nat.mul_comm]
  | ⟨1, _⟩ =>
    refine h.trans ?_
    show win0_0.index t (1 : Fin 2) * 128 + k.val = k.val
    rw [hi.2, Nat.zero_mul, Nat.zero_add]

/-- Where the label block's entry `r` sits in the padded array: at `8192·t + r`. -/
theorem emb1 (t : Fin cfg0.N) (r : Fin 8192) :
    ((win0_1.rect t).emb (ix1 r) : S1007616.Idx) = ix1 (tileRow (tileOf t) r) := by
  funext a
  refine Fin.ext ?_
  have h := win0_1.rect_emb_val t (ix1 r) a
  match a with
  | ⟨0, _⟩ =>
    refine h.trans ?_
    show win0_1.index t (0 : Fin 1) * 8192 + r.val = 8192 * t.val + r.val
    rw [index1 t, Nat.mul_comm]

/-- So tile `t`'s feature block reads the padded features at the tile's rows, -/
theorem xblk_apply (c : Dev nD) (t : Fin cfg0.N) (r : Fin 8192) (k : Fin 128) :
    xblk V c t (ix2 r k) = xarr V c (ix2 (tileRow (tileOf t) r) k) :=
  congrArg (xarr V c) (emb0 t r k)

/-- and its label block the padded labels there. -/
theorem lblk_apply (c : Dev nD) (t : Fin cfg0.N) (r : Fin 8192) :
    lblk V c t (ix1 r) = larr V c (ix1 (tileRow (tileOf t) r)) :=
  congrArg (larr V c) (emb1 t r)

end Blocks

/-! ## The tables after each tile -/

section Invariant
variable (V : (c : Dev nD) → (b : Ref sig .tc) → Buf (Elt Ideal) ((c : Thread nD τ).loc b))

/-- Tile `t`'s addend to entry `j` of the table of summed unit vectors: over the tile's rows, the indicator of
    "the row's label is class `j 0`" times the row's unit vector at `j 1` (nothing past the last tile). -/
def stepM (c : Dev nD) (t : ℕ) (j : S128x128.Idx) : EReal :=
  if h : t < 123 then
    ∑ r : Fin 8192, hot (larr V c (ix1 (tileRow ⟨t, h⟩ r))) (BitVec.ofNat 32 (j 0).val)
      * rowUnit (xprow (xarr V c) (tileRow ⟨t, h⟩ r)) (j 1)
  else 0

/-- Tile `t`'s addend to entry `j` of the table of counts: the number of the tile's rows labelled `j 0`. -/
def stepC (c : Dev nD) (t : ℕ) (j : S128x128.Idx) : EReal :=
  if h : t < 123 then
    ∑ r : Fin 8192, hot (larr V c (ix1 (tileRow ⟨t, h⟩ r))) (BitVec.ofNat 32 (j 0).val) * 1
  else 0

/-- The step of the first table over tile `t`'s blocks is that addend: the blocks are the tile's rows of the
    padded arrays. -/
theorem stepM_blk (c : Dev nD) (t : Fin cfg0.N) (j : S128x128.Idx) :
    ∑ r : Fin 8192, hot (lblk V c t (ix1 r)) (BitVec.ofNat 32 (j 0).val)
        * rowUnit (fun k => xblk V c t (ix2 r k)) (j 1)
      = stepM V c t.val j := by
  unfold stepM
  rw [dif_pos (lt_of_lt_of_eq t.isLt hN)]
  refine Finset.sum_congr rfl fun r _ => ?_
  rw [lblk_apply V c t r,
    show (fun k => xblk V c t (ix2 r k)) = xprow (xarr V c) (tileRow (tileOf t) r) from
      funext fun k => xblk_apply V c t r k]

/-- The same for the table of counts. -/
theorem stepC_blk (c : Dev nD) (t : Fin cfg0.N) (j : S128x128.Idx) :
    ∑ r : Fin 8192, hot (lblk V c t (ix1 r)) (BitVec.ofNat 32 (j 0).val) * 1 = stepC V c t.val j := by
  unfold stepC
  rw [dif_pos (lt_of_lt_of_eq t.isLt hN)]
  refine Finset.sum_congr rfl fun r _ => ?_
  rw [lblk_apply V c t r]

/-- AFTER TILE `n` the first table holds the addends of the tiles `0 … n`: the first tile resets it to zero and
    adds its own, every later tile adds its own to what the tile before left. -/
theorem inv_M (c : Dev nD) : ∀ (n : ℕ) (hn : n < cfg0.N) (j : S128x128.Idx),
    (outsAt0 (F := Ideal) V c n hn).1 j = ∑ t ∈ Finset.range (n + 1), stepM V c t j := by
  intro n
  induction n with
  | zero =>
    intro hn j
    rw [outsAt0_A V c ⟨0, hn⟩ rfl]
    dsimp only
    refine (congrFun (piece_A_2 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩)
      ((hcond0_0 ⟨0, hn⟩).mpr rfl) (xblk V c ⟨0, hn⟩) (lblk V c ⟨0, hn⟩)) j).trans ?_
    have h1 : k0_pay1 (F := Ideal) j = (0 : EReal) := congrFun Pay0.pay1_eq j
    rw [Pay0.pay4_apply, h1, zero_add, Finset.sum_range_one]
    exact stepM_blk V c ⟨0, hn⟩ j
  | succ n ih =>
    intro hn j
    have hB : ¬(⟨n + 1, hn⟩ : Fin cfg0.N).val % 123 = 0 := by have := hN; dsimp only; omega
    rw [outsAt0_B V c ⟨n + 1, hn⟩ hB]
    dsimp only
    refine (congrFun (piece_B_2 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩)
      (fun h => hB ((hcond0_0 ⟨n + 1, hn⟩).mp h)) (xblk V c ⟨n + 1, hn⟩) (lblk V c ⟨n + 1, hn⟩)
      (outsAt0 V c n (Nat.lt_of_succ_lt hn)).1 (outsAt0 V c n (Nat.lt_of_succ_lt hn)).2) j).trans ?_
    rw [Pay0.pay4_apply, Finset.sum_range_succ, ih (Nat.lt_of_succ_lt hn) j]
    exact congrArg _ (stepM_blk V c ⟨n + 1, hn⟩ j)

/-- AFTER TILE `n` the second table holds the counts of the tiles `0 … n`, in the same way. -/
theorem inv_C (c : Dev nD) : ∀ (n : ℕ) (hn : n < cfg0.N) (j : S128x128.Idx),
    (outsAt0 (F := Ideal) V c n hn).2 j = ∑ t ∈ Finset.range (n + 1), stepC V c t j := by
  intro n
  induction n with
  | zero =>
    intro hn j
    rw [outsAt0_A V c ⟨0, hn⟩ rfl]
    dsimp only
    refine (congrFun (piece_A_3 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩)
      ((hcond0_0 ⟨0, hn⟩).mpr rfl) (xblk V c ⟨0, hn⟩) (lblk V c ⟨0, hn⟩)) j).trans ?_
    have h2 : k0_pay2 (F := Ideal) j = (0 : EReal) := congrFun Pay0.pay2_eq j
    rw [Pay0.pay5_apply, h2, zero_add, Finset.sum_range_one]
    exact stepC_blk V c ⟨0, hn⟩ j
  | succ n ih =>
    intro hn j
    have hB : ¬(⟨n + 1, hn⟩ : Fin cfg0.N).val % 123 = 0 := by have := hN; dsimp only; omega
    rw [outsAt0_B V c ⟨n + 1, hn⟩ hB]
    dsimp only
    refine (congrFun (piece_B_3 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩)
      (fun h => hB ((hcond0_0 ⟨n + 1, hn⟩).mp h)) (xblk V c ⟨n + 1, hn⟩) (lblk V c ⟨n + 1, hn⟩)
      (outsAt0 V c n (Nat.lt_of_succ_lt hn)).1 (outsAt0 V c n (Nat.lt_of_succ_lt hn)).2) j).trans ?_
    rw [Pay0.pay5_apply, Finset.sum_range_succ, ih (Nat.lt_of_succ_lt hn) j]
    exact congrArg _ (stepC_blk V c ⟨n + 1, hn⟩ j)

end Invariant

/-! ## The two tables after the launch -/

variable (V : (c : Dev nD) → (b : Ref sig .tc) → Buf (Elt Ideal) ((c : Thread nD τ).loc b))

/-- After the first launch the table of summed unit vectors holds the tile-by-tile sum. -/
theorem region0_M (c : Dev nD) :
    (dat0 (F := Ideal) V c).arrAt 2 cfg0.N = tileM (V c main_v0) (V c main_v1) := by
  refine (Last.last0_2 V c).trans ?_
  funext j
  refine (inv_M V c 122 _ j).trans ?_
  show ∑ t ∈ Finset.range 123, stepM V c t j = _
  rw [Finset.sum_range]
  exact Finset.sum_congr rfl fun t _ => dif_pos t.isLt

/-- After the first launch the table of counts holds the tile-by-tile count. -/
theorem region0_C (c : Dev nD) :
    (dat0 (F := Ideal) V c).arrAt 3 cfg0.N = tileC (V c main_v1) := by
  refine (Last.last0_3 V c).trans ?_
  funext j
  refine (inv_C V c 122 _ j).trans ?_
  show ∑ t ∈ Finset.range 123, stepC V c t j = _
  rw [Finset.sum_range]
  exact Finset.sum_congr rfl fun t _ => dif_pos t.isLt

end Cert.KernelIdeal.Region0

end
-- ==== Proof.KPay1.lean ====
import proofs.«416101_j13142599925900_1_alg».proof.Proof.Gen.KernelIdeal.Skeleton
import proofs.«416101_j13142599925900_1_alg».proof.Proof.Spec
import Idealize.ShloMosaic.PureOps.Ideal.Laws
import Idealize.ShloMosaic.Lib.Pipeline.Value
import Idealize.ShloMosaic.Lib.ValueLayout
import Idealize.ShloMosaic.Lib.IdealHost

set_option maxRecDepth 16384

noncomputable section

open scoped BigOperators

namespace Cert.KernelIdeal.Pay1

open Idealize.ShloMosaic Idealize.ShloMosaic.ValueIdx
open Cert.KernelIdeal Cert.KernelIdeal.Gen Cert.Proto

/-! ## Column forms of the layout operations

A vector of length `a` viewed as a column `[a, 1]`, and a column spread over `b` lanes. -/

section Columns
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column 0 of an `[a, b]` array, cut out as `[a, 1]`, reads at `(p, u)` the array at `(p, 0)`. -/
theorem sliceCol0_apply {a b : ℕ} (z : Fin b) (hz : z.val = 0) (X : (⟨2, ![a, b]⟩ : Shape).Idx → α)
    (h : (⟨2, ![a, b]⟩ : Shape).Slices ![0, 0] ⟨2, ![a, 1]⟩) (p : Fin a) (u : Fin 1) :
    extractStridedSlice ⟨2, ![a, 1]⟩ ![0, 0] X h (ix2 p u) = X (ix2 p z) :=
  slice2_axis1_apply 0 X h p u z (by omega)

end Columns

/-! ## The one-hot matrix -/

/-- A one-bit comparison widened to a word and converted is the indicator. -/
theorem sitofp_eq_bit (l c : BitVec 32) :
    (FloatOps.sitofp (F := Ideal) .f32 ((IntOp.cmpi .eq l c).setWidth 32) : EReal) = hot l c := by
  show ((((IntOp.cmpi .eq l c).setWidth 32).toInt : ℝ) : EReal) = hot l c
  unfold hot IntOp.cmpi
  by_cases h : l = c
  · subst h; simp
  · have hb : (l == c) = false := by simpa using h
    simp [hb, h]

/-- Entry `(r, c)` of the one-hot matrix is the indicator "row `r`'s label is the class word `c`". -/
theorem onehot_apply (x1 : Vec Ideal S8192 .i32) (r : Fin 8192) (c : Fin 128) :
    k1_pay4 (F := Ideal) x1 (ix2 r c) = hot (x1 (ix1 r)) (BitVec.ofNat 32 c.val) := by
  unfold k1_pay4
  show FloatOps.sitofp (F := Ideal) .f32 ((IntOp.cmpi .eq
      (broadcastTo S8192x128 (shapeCast S8192x1 (shapeCast S8192 x1 shapeCasts_S8192_S8192) shapeCasts_S8192_S8192x1)
        broadcasts_S8192x1_S8192x128 (ix2 r c))
      (iota .tc S8192x128 32 [1] iota_S8192x128_d1_w32 (ix2 r c))).setWidth 32) = _
  rw [broadcastTo_a1_ab_apply, shapeCast_a_a1_apply, shapeCast_self, iota_single_apply]
  exact sitofp_eq_bit _ _

/-! ## The two products read at an index

The look-ups contract the one-hot matrix's class axis against a table's row axis (length 128); the accumulation
contracts the row axis of both operands (length 8192). -/

/-- The look-up's operand indices, axis by axis: at output `(r, k)` and contraction position `q` the left operand is
    read at `(r, q)` and the table at `(q, k)`. -/
theorem lhs_look_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl
theorem lhs_look_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_look_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_look_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- A look-up product at `(r, k)`: the sum over the 128 classes of the left operand's row `r` times the table's
    column `k`. -/
theorem look_apply (A : FVec Ideal S8192x128 .bf16) (B : FVec Ideal S128x128 .bf16) (r : Fin 8192) (k : Fin 128) :
    matmul dot_S8192x128_S128x128_S8192x128_1_0_0_1_n_n none A B (constant (F := Ideal) S8192x128 .f32 0x00000000#32) (ix2 r k)
      = ∑ c : Fin 128, A (ix2 r c) * B (ix2 c k) := by
  simp only [matmul]
  rw [Ideal.matmul_constant_zero_apply,
    ← Equiv.sum_comp (contrEquiv1 dot_S8192x128_S128x128_S8192x128_1_0_0_1_n_n 128 rfl rfl).symm]
  refine Finset.sum_congr rfl fun c _ => ?_
  have hk := contrEquiv1_symm_val dot_S8192x128_S128x128_S8192x128_1_0_0_1_n_n 128 rfl rfl c
  have el : dot_S8192x128_S128x128_S8192x128_1_0_0_1_n_n.lhsIdx (ix2 r k)
      ((contrEquiv1 dot_S8192x128_S128x128_S8192x128_1_0_0_1_n_n 128 rfl rfl).symm c) = ix2 r c :=
    funext fun a => Fin.ext (by
      match a with
      | ⟨0, _⟩ => exact lhs_look_0 _ _
      | ⟨1, _⟩ => exact (lhs_look_1 _ _).trans hk)
  have er : dot_S8192x128_S128x128_S8192x128_1_0_0_1_n_n.rhsIdx (ix2 r k)
      ((contrEquiv1 dot_S8192x128_S128x128_S8192x128_1_0_0_1_n_n 128 rfl rfl).symm c) = ix2 c k :=
    funext fun a => Fin.ext (by
      match a with
      | ⟨0, _⟩ => exact (rhs_look_0 _ _).trans hk
      | ⟨1, _⟩ => exact rhs_look_1 _ _)
  rw [el, er]

/-- The accumulation's operand indices, axis by axis: at output `(c, d)` and contraction position `q` the left operand
    is read at `(q, c)` and the right at `(q, d)`. -/
theorem lhs_acc_0 (i : S128x128.Idx) (q : dot_S8192x128_S8192x128_S128x128_0_0_1_1_n_n.contr.Idx) :
    (dot_S8192x128_S8192x128_S128x128_0_0_1_1_n_n.lhsIdx i q 0).val = (q ⟨0, by decide⟩).val :=
  dot_S8192x128_S8192x128_S128x128_0_0_1_1_n_n.lhsIdx_val_of_single rfl i q
theorem lhs_acc_1 (i : S128x128.Idx) (q : dot_S8192x128_S8192x128_S128x128_0_0_1_1_n_n.contr.Idx) :
    (dot_S8192x128_S8192x128_S128x128_0_0_1_1_n_n.lhsIdx i q 1).val = (i 0).val := by
  unfold DotDims.lhsIdx
  rw [dif_neg (show ¬(1 : Fin S8192x128.rank) ∈ dot_S8192x128_S8192x128_S128x128_0_0_1_1_n_n.lhsBatch by decide),
    dif_pos (show (1 : Fin S8192x128.rank) ∈ dot_S8192x128_S8192x128_S128x128_0_0_1_1_n_n.lhsNonContracting by decide)]
  rfl
theorem rhs_acc_0 (i : S128x128.Idx) (q : dot_S8192x128_S8192x128_S128x128_0_0_1_1_n_n.contr.Idx) :
    (dot_S8192x128_S8192x128_S128x128_0_0_1_1_n_n.rhsIdx i q 0).val = (q ⟨0, by decide⟩).val :=
  dot_S8192x128_S8192x128_S128x128_0_0_1_1_n_n.rhsIdx_val_of_single rfl i q
theorem rhs_acc_1 (i : S128x128.Idx) (q : dot_S8192x128_S8192x128_S128x128_0_0_1_1_n_n.contr.Idx) :
    (dot_S8192x128_S8192x128_S128x128_0_0_1_1_n_n.rhsIdx i q 1).val = (i 1).val := by
  unfold DotDims.rhsIdx
  rw [dif_neg (show ¬(1 : Fin S8192x128.rank) ∈ dot_S8192x128_S8192x128_S128x128_0_0_1_1_n_n.rhsBatch by decide),
    dif_pos (show (1 : Fin S8192x128.rank) ∈ dot_S8192x128_S8192x128_S128x128_0_0_1_1_n_n.rhsNonContracting by decide)]
  rfl

/-- The accumulation product at `(c, d)`: the sum over the tile's 8192 rows of the left operand's column `c` times
    the right operand's column `d`. -/
theorem acc_apply (A B : FVec Ideal S8192x128 .bf16) (c d : Fin 128) :
    matmul dot_S8192x128_S8192x128_S128x128_0_0_1_1_n_n none A B (constant (F := Ideal) S128x128 .f32 0x00000000#32) (ix2 c d)
      = ∑ r : Fin 8192, A (ix2 r c) * B (ix2 r d) := by
  simp only [matmul]
  rw [Ideal.matmul_constant_zero_apply,
    ← Equiv.sum_comp (contrEquiv1 dot_S8192x128_S8192x128_S128x128_0_0_1_1_n_n 8192 rfl rfl).symm]
  refine Finset.sum_congr rfl fun r _ => ?_
  have hk := contrEquiv1_symm_val dot_S8192x128_S8192x128_S128x128_0_0_1_1_n_n 8192 rfl rfl r
  have el : dot_S8192x128_S8192x128_S128x128_0_0_1_1_n_n.lhsIdx (ix2 c d)
      ((contrEquiv1 dot_S8192x128_S8192x128_S128x128_0_0_1_1_n_n 8192 rfl rfl).symm r) = ix2 r c :=
    funext fun a => Fin.ext (by
      match a with
      | ⟨0, _⟩ => exact (lhs_acc_0 _ _).trans hk
      | ⟨1, _⟩ => exact lhs_acc_1 _ _)
  have er : dot_S8192x128_S8192x128_S128x128_0_0_1_1_n_n.rhsIdx (ix2 c d)
      ((contrEquiv1 dot_S8192x128_S8192x128_S128x128_0_0_1_1_n_n 8192 rfl rfl).symm r) = ix2 r d :=
    funext fun a => Fin.ext (by
      match a with
      | ⟨0, _⟩ => exact (rhs_acc_0 _ _).trans hk
      | ⟨1, _⟩ => exact rhs_acc_1 _ _)
  rw [el, er]

/-! ## A lane sum read at a row -/

/-- The sum along the 128 lanes, read at row `r`. -/
theorem laneSum_apply (v : FVec Ideal S8192x128 .f32) (hφ : FKind.Formats .f32)
    (hacc : (0x00000000#32 : BitVec 32) = 0x00000000#32) (r : Fin 8192) :
    multiReduction (F := Ideal) .add [1] S8192 v 0x00000000#32 reduces_S8192x128_S8192 hφ hacc (ix1 r)
      = ∑ k : Fin 128, v (ix2 r k) := by
  refine (Ideal.multiReduction_add_single v 0x00000000#32 reduces_S8192x128_S8192 hφ hacc (ix1 r)).trans ?_
  refine Finset.sum_congr rfl fun k _ => congrArg v ?_
  funext a
  match a with
  | ⟨0, _⟩ => rfl
  | ⟨1, _⟩ => rfl

/-! ## The payloads of the second body, read at an index -/

/-- The feature tile is read as it is. -/
theorem pay3_eq (x0 : Vec Ideal S8192x128 .f32) : k1_pay3 (F := Ideal) x0 = x0 := by
  unfold k1_pay3
  exact shapeCast_self _ _

/-- A class table as the products read it — cast to its own shape and narrowed — is the table. -/
theorem table_apply (T : Vec Ideal S128x128 .f32) (j : S128x128.Idx) :
    (truncf .bf16 (shapeCast S128x128 T shapeCasts_S128x128_S128x128) bitsLt_bf16_f32 : FVec Ideal S128x128 .bf16) j = T j := by
  rw [truncf_apply, shapeCast_self]

/-- The product of the one-hot matrix with a table, at `(r, k)`: row `r`'s class vector looked up in the table. -/
theorem lookM_apply (x1 : Vec Ideal S8192 .i32) (M : Vec Ideal S128x128 .f32) (r : Fin 8192) (k : Fin 128) :
    matmul dot_S8192x128_S128x128_S8192x128_1_0_0_1_n_n none (k1_pay4 (F := Ideal) x1)
        (truncf .bf16 (shapeCast S128x128 M shapeCasts_S128x128_S128x128) bitsLt_bf16_f32)
        (constant (F := Ideal) S8192x128 .f32 0x00000000#32) (ix2 r k)
      = lookM M (x1 (ix1 r)) k := by
  rw [look_apply]
  unfold lookM
  refine Finset.sum_congr rfl fun c _ => ?_
  rw [onehot_apply, table_apply]

/-- Column 0 of the product of the one-hot matrix with the count table: row `r`'s class count. -/
theorem pay5_apply (x1 : Vec Ideal S8192 .i32) (CN : Vec Ideal S128x128 .f32) (r : Fin 8192) (u : Fin 1) :
    k1_pay5 (F := Ideal) x1 CN (ix2 r u) = lookC CN (x1 (ix1 r)) := by
  unfold k1_pay5
  show extractStridedSlice S8192x1 ![0, 0]
      (matmul dot_S8192x128_S128x128_S8192x128_1_0_0_1_n_n none (k1_pay4 (F := Ideal) x1)
        (truncf .bf16 (shapeCast S128x128 CN shapeCasts_S128x128_S128x128) bitsLt_bf16_f32)
        (constant (F := Ideal) S8192x128 .f32 0x00000000#32))
      slices_S8192x128_o0_0_S8192x1 (ix2 r u) = _
  rw [sliceCol0_apply (0 : Fin 128) rfl, look_apply]
  unfold lookC
  refine Finset.sum_congr rfl fun c _ => ?_
  rw [onehot_apply, table_apply]

/-- The tile's rows scaled to unit length, as the second body computes them: each entry over the larger of the row's
    norm (the root of the lane sum of squares, kept as a column) and the guard. -/
def unitTile (x0 : Vec Ideal S8192x128 .f32) : FVec Ideal S8192x128 .f32 :=
  divf (k1_pay3 x0) (broadcastTo S8192x128
    (maximumf
      (sqrt (shapeCast S8192x1
        (multiReduction .add [1] S8192 (mulf (k1_pay3 x0) (k1_pay3 x0)) 0x00000000#32 reduces_S8192x128_S8192 (.inl rfl) rfl)
        shapeCasts_S8192_S8192x1))
      (broadcast S8192x1 (Scalar.ofBits .f32 0x322BCC77#32)))
    broadcasts_S8192x1_S8192x128)

/-- Entry `(r, k)` of the scaled tile is the unit vector of row `r` at `k`. -/
theorem unitTile_apply (x0 : Vec Ideal S8192x128 .f32) (r : Fin 8192) (k : Fin 128) :
    unitTile x0 (ix2 r k) = rowUnit (fun k => x0 (ix2 r k)) k := by
  unfold unitTile
  rw [divf_apply, broadcastTo_a1_ab_apply, maximumf_apply, broadcast_apply]
  show Ideal.div _ (max (Ideal.sqrt (shapeCast S8192x1 _ shapeCasts_S8192_S8192x1 (ix2 r (0 : Fin 1)))) _) = _
  rw [shapeCast_a_a1_apply, laneSum_apply, pay3_eq]
  rfl

/-- The numerator of a row's weight: the inner product of its unit vector with its class's looked-up vector, less the
    unit vector's inner product with itself. -/
theorem pay6_apply (x0 : Vec Ideal S8192x128 .f32) (x1 : Vec Ideal S8192 .i32) (M : Vec Ideal S128x128 .f32)
    (r : Fin 8192) (u : Fin 1) :
    k1_pay6 (F := Ideal) x0 x1 M (ix2 r u)
      = (∑ k : Fin 128, rowUnit (fun k => x0 (ix2 r k)) k * lookM M (x1 (ix1 r)) k)
        - (∑ k : Fin 128, rowUnit (fun k => x0 (ix2 r k)) k * rowUnit (fun k => x0 (ix2 r k)) k) := by
  unfold k1_pay6
  show (shapeCast S8192x1
        (multiReduction .add [1] S8192
          (mulf (unitTile x0)
            (matmul dot_S8192x128_S128x128_S8192x128_1_0_0_1_n_n none (k1_pay4 (F := Ideal) x1)
              (truncf .bf16 (shapeCast S128x128 M shapeCasts_S128x128_S128x128) bitsLt_bf16_f32)
              (constant (F := Ideal) S8192x128 .f32 0x00000000#32)))
          0x00000000#32 reduces_S8192x128_S8192 (.inl rfl) rfl)
        shapeCasts_S8192_S8192x1 (ix2 r u))
      - (shapeCast S8192x1
        (multiReduction .add [1] S8192 (mulf (unitTile x0) (unitTile x0)) 0x00000000#32 reduces_S8192x128_S8192 (.inl rfl) rfl)
        shapeCasts_S8192_S8192x1 (ix2 r u)) = _
  rw [shapeCast_a_a1_apply, shapeCast_a_a1_apply, laneSum_apply, laneSum_apply]
  refine congrArg₂ (· - ·) ?_ ?_
  · refine Finset.sum_congr rfl fun k _ => ?_
    rw [mulf_apply, unitTile_apply, lookM_apply]
  · refine Finset.sum_congr rfl fun k _ => ?_
    rw [mulf_apply, unitTile_apply]

/-- The looked-up count less one. -/
theorem pay7_apply (x1 : Vec Ideal S8192 .i32) (CN : Vec Ideal S128x128 .f32) (r : Fin 8192) (u : Fin 1) :
    k1_pay7 (F := Ideal) x1 CN (ix2 r u) = lookC CN (x1 (ix1 r)) - 1 := by
  unfold k1_pay7
  show k1_pay5 (F := Ideal) x1 CN (ix2 r u) - Ideal.ofBits .f32 0x3F800000#32 = _
  rw [pay5_apply, Ideal.ofBits_one_f32]

/-- The column of ones. -/
theorem pay8_apply (j : S8192x1.Idx) : k1_pay8 (F := Ideal) j = 1 := by
  unfold k1_pay8
  show Ideal.ofBits .f32 0x3F800000#32 = 1
  exact Ideal.ofBits_one_f32

/-- The table of weighted sums is reset to zero everywhere. -/
theorem pay2_eq : (k1_pay2 (F := Ideal)) = fun _ => (0 : EReal) := by
  funext i
  unfold k1_pay2
  show Ideal.ofBits .f32 0x00000000#32 = 0
  exact Ideal.ofBits_zero_f32

/-- ONE TILE'S STEP of the table of weighted sums: entry (c, d) grows by the sum over the tile's rows of the
    indicator "the row's label is c" times the row's weight — from its class's vector and count looked up in the
    tables `M` and `CN` by products with the row's one-hot vector — times the row's entry at d. -/
theorem step_apply (x0 : Vec Ideal S8192x128 .f32) (x1 : Vec Ideal S8192 .i32) (M CN acc : Vec Ideal S128x128 .f32)
    (j : S128x128.Idx) :
    k1_pay1 (F := Ideal) (k1_pay3 x0) (k1_pay4 x1) (k1_pay5 x1 CN) (k1_pay6 x0 x1 M) (k1_pay7 x1 CN) (k1_pay8 (F := Ideal)) acc j
      = acc j + ∑ r : Fin 8192, hot (x1 (ix1 r)) (BitVec.ofNat 32 (j 0).val) *
          (rowWeight (fun k => x0 (ix2 r k)) (lookM M (x1 (ix1 r))) (lookC CN (x1 (ix1 r))) * x0 (ix2 r (j 1))) := by
  obtain ⟨c, d, rfl⟩ : ∃ (c d : Fin 128), j = ix2 c d := ⟨j 0, j 1, eq_ix2 j⟩
  unfold k1_pay1
  show shapeCast S128x128 acc shapeCasts_S128x128_S128x128 (ix2 c d)
      + matmul dot_S8192x128_S8192x128_S128x128_0_0_1_1_n_n none (k1_pay4 (F := Ideal) x1)
          (truncf .bf16
            (mulf
              (broadcastTo S8192x128
                (divf (k1_pay6 (F := Ideal) x0 x1 M)
                  (mulf (maximumf (k1_pay7 (F := Ideal) x1 CN) (k1_pay8 (F := Ideal)))
                    (maximumf (k1_pay5 (F := Ideal) x1 CN) (broadcast S8192x1 (Scalar.ofBits .f32 0x3F800000#32)))))
                broadcasts_S8192x1_S8192x128)
              (k1_pay3 (F := Ideal) x0))
            bitsLt_bf16_f32)
          (constant (F := Ideal) S128x128 .f32 0x00000000#32) (ix2 c d) = _
  rw [shapeCast_self, acc_apply]
  refine congrArg (acc (ix2 c d) + ·) (Finset.sum_congr rfl fun r _ => ?_)
  rw [onehot_apply, truncf_apply, mulf_apply, broadcastTo_a1_ab_apply, divf_apply, mulf_apply, maximumf_apply,
    maximumf_apply, broadcast_apply, pay6_apply, pay7_apply, pay8_apply, pay5_apply, pay3_eq]
  show hot _ _ * (Ideal.div _ (max _ 1 * max _ (Ideal.ofBits .f32 0x3F800000#32)) * _) = _
  rw [Ideal.ofBits_one_f32]
  rfl

end Cert.KernelIdeal.Pay1

end
-- ==== Proof.KRegion1.lean ====
import proofs.«416101_j13142599925900_1_alg».proof.Proof.Gen.KernelIdeal.Frame
import proofs.«416101_j13142599925900_1_alg».proof.Proof.Spec
import proofs.«416101_j13142599925900_1_alg».proof.Proof.KPay1
import proofs.«416101_j13142599925900_1_alg».proof.Proof.KLast
import Idealize.ShloMosaic.Lib.Pipeline.Value
import Idealize.ShloMosaic.Lib.Tactic

set_option maxRecDepth 16384

noncomputable section

open scoped BigOperators

namespace Cert.KernelIdeal.Region1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Proto

/-! ## What one run of the body leaves in the window of the table of weighted sums

The body reads its four input blocks whole, and writes the whole [128,128] block of the table once (at every
point after the first) or twice (at the first point: the zero table, then the update of that zero table). -/

section Pieces
variable {F : FTy → Type} [FloatOps F]

/-- The zero offsets of a rank-2 access, as the constant function. -/
theorem hz : (![0, 0] : Fin 2 → Nat) = fun _ => 0 := funext fun a => by fin_cases a <;> rfl
/-- The zero offset of a rank-1 access, as the constant function. -/
theorem hz1 : (![0] : Fin 1 → Nat) = fun _ => 0 := funext fun a => by fin_cases a; rfl

/-- AT A POINT AFTER THE FIRST the body leaves the update of the running table `p`: its one store covers the
    block, and each of its loads reads a whole buffer. -/
theorem out_B (c : Dev nD) (i : grid1.Coords) (a1 : Memref sig .tc .vmem S8192x128 .f32) (h1 : a1.IsWhole)
    (a2 : Memref sig .tc .vmem S8192 .i32) (h2 : a2.IsWhole) (a3 : Memref sig .tc .vmem S128x128 .f32) (h3 : a3.IsWhole)
    (a4 : Memref sig .tc .vmem S128x128 .f32) (h4 : a4.IsWhole) (a5 : Memref sig .tc .vmem S128x128 .f32) (h5 : a5.IsWhole)
    (hc : ¬cond1_0 i) (x0 : Vec F S8192x128 .f32) (x1 : Vec F S8192 .i32) (x2 x3 p : Vec F S128x128 .f32) :
    out1_B_4 c i a1 h1 a2 h2 a3 h3 a4 h4 a5 h5 hc x0 x1 x2 x3 p
      = k1_pay1 (k1_pay3 x0) (k1_pay4 x1) (k1_pay5 x1 x3) (k1_pay6 x0 x1 x2) (k1_pay7 x1 x3) (k1_pay8 (F := F)) p := by
  unfold out1_B_4
  rw [View.read_writes_eq_canon _ _ _ (cover1_B_4 c i a1 h1 a2 h2 a3 h3 a4 h4 a5 h5 hc x0 x1 x2 x3 p)]
  unfold kernelRun1_B
  dsimp only
  sl_unfold_words
  rw [View.canon_unit_zero (S := S128x128) hz]
  simp only [View.readAt_eq_ld, h1.read_unread, h2.read_unread, h3.read_unread, h4.read_unread, h5.read_unread,
    View.ld_unit_zero (S := S8192x128) hz, View.ld_unit_zero (S := S8192) hz1, View.ld_unit_zero (S := S128x128) hz]

/-- AT THE FIRST POINT the body stores the zero table, reads it back and leaves its update: the later of the two
    stores covers the block, and the table it updates is the earlier store's payload. -/
theorem out_A (c : Dev nD) (i : grid1.Coords) (a1 : Memref sig .tc .vmem S8192x128 .f32) (h1 : a1.IsWhole)
    (a2 : Memref sig .tc .vmem S8192 .i32) (h2 : a2.IsWhole) (a3 : Memref sig .tc .vmem S128x128 .f32) (h3 : a3.IsWhole)
    (a4 : Memref sig .tc .vmem S128x128 .f32) (h4 : a4.IsWhole) (a5 : Memref sig .tc .vmem S128x128 .f32) (h5 : a5.IsWhole)
    (hc : cond1_0 i) (x0 : Vec F S8192x128 .f32) (x1 : Vec F S8192 .i32) (x2 x3 : Vec F S128x128 .f32) :
    out1_A_4 c i a1 h1 a2 h2 a3 h3 a4 h4 a5 h5 hc x0 x1 x2 x3
      = k1_pay1 (k1_pay3 x0) (k1_pay4 x1) (k1_pay5 x1 x3) (k1_pay6 x0 x1 x2) (k1_pay7 x1 x3) (k1_pay8 (F := F))
          (k1_pay2 (F := F)) := by
  unfold out1_A_4
  rw [View.read_writes_eq_canon _ _ _ (cover1_A_4 c i a1 h1 a2 h2 a3 h3 a4 h4 a5 h5 hc x0 x1 x2 x3)]
  unfold kernelRun1_A
  dsimp only
  sl_unfold_words
  rw [View.canon_cons_unit_zero (S := S128x128) hz, View.readCov_unit_zero (S := S128x128) _ hz]
  simp only [View.readAt_eq_ld, h1.read_unread, h2.read_unread, h3.read_unread, h4.read_unread,
    View.ld_unit_zero (S := S8192x128) hz, View.ld_unit_zero (S := S8192) hz1, View.ld_unit_zero (S := S128x128) hz]

end Pieces

variable (V : (c : Dev nD) → (b : Ref sig .tc) → Buf (Elt Ideal) ((c : Thread nD τ).loc b))

/-! ## The launch's arrays and the blocks a grid point reads -/

/-- The padded features as the launch finds them. -/
abbrev xp (c : Dev nD) : Vec Ideal S1007616x128 .f32 := V c main_v0
/-- The padded labels. -/
abbrev lp (c : Dev nD) : Vec Ideal S1007616 .i32 := V c main_v1
/-- The table of summed unit vectors. -/
abbrev Mt (c : Dev nD) : Vec Ideal S128x128 .f32 := V c main_v2_0
/-- The table of counts. -/
abbrev Ct (c : Dev nD) : Vec Ideal S128x128 .f32 := V c main_v2_1
/-- The block of features a grid point reads. -/
abbrev xblk (c : Dev nD) (t : Fin cfg1.N) : Vec Ideal S8192x128 .f32 := iblk1 V c 0 t
/-- The block of labels a grid point reads. -/
abbrev lblk (c : Dev nD) (t : Fin cfg1.N) : Vec Ideal S8192 .i32 := iblk1 V c 1 t
/-- The block of the table of summed unit vectors a grid point reads. -/
abbrev mblk (c : Dev nD) (t : Fin cfg1.N) : Vec Ideal S128x128 .f32 := iblk1 V c 2 t
/-- The block of the table of counts a grid point reads. -/
abbrev cblk (c : Dev nD) (t : Fin cfg1.N) : Vec Ideal S128x128 .f32 := iblk1 V c 3 t

/-- The block indices at every grid point: the features' and the labels' blocks move with the point along the
    row axis, the three tables' blocks stay at the origin. -/
theorem hidx : ∀ t : Fin grid1.N,
    win1_0.index t (0 : Fin 2) = t.val ∧ win1_0.index t (1 : Fin 2) = 0 ∧ win1_1.index t (0 : Fin 1) = t.val
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 := by decide +kernel

/-- Row `r` of the features' block at point `t` is row `8192 t + r` of the padded features: a block's
    coordinate is its index times its size plus the coordinate inside the block. -/
theorem xblk_apply (c : Dev nD) (t : Fin cfg1.N) (r : Fin 8192) (k : Fin 128) (h : 8192 * t.val + r.val < 1007616) :
    xblk V c t (ix2 r k) = xp V c (ix2 ⟨8192 * t.val + r.val, h⟩ k) := by
  have hi := hidx t
  unfold xblk iblk1
  rw [View.read_apply]
  show V c main_v0 (((cfg1.win 0).blk t).view.emb (ix2 r k)) = V c main_v0 (ix2 ⟨8192 * t.val + r.val, h⟩ k)
  refine congrArg (V c main_v0) (funext fun a => Fin.ext ?_)
  match a with
  | ⟨0, _⟩ => show win1_0.index t 0 * 8192 + 1 * r.val = 8192 * t.val + r.val; rw [hi.1]; omega
  | ⟨1, _⟩ => show win1_0.index t 1 * 128 + 1 * k.val = k.val; rw [hi.2.1]; omega

/-- Entry `r` of the labels' block at point `t` is entry `8192 t + r` of the padded labels. -/
theorem lblk_apply (c : Dev nD) (t : Fin cfg1.N) (r : Fin 8192) (h : 8192 * t.val + r.val < 1007616) :
    lblk V c t (ix1 r) = lp V c (ix1 ⟨8192 * t.val + r.val, h⟩) := by
  have hi := hidx t
  unfold lblk iblk1
  rw [View.read_apply]
  show V c main_v1 (((cfg1.win 1).blk t).view.emb (ix1 r)) = V c main_v1 (ix1 ⟨8192 * t.val + r.val, h⟩)
  refine congrArg (V c main_v1) (funext fun a => Fin.ext ?_)
  match a with
  | ⟨0, _⟩ => show win1_1.index t 0 * 8192 + 1 * r.val = 8192 * t.val + r.val; rw [hi.2.2.1]; omega

/-- The block of the table of summed unit vectors is the whole table, at every point. -/
theorem mblk_eq (c : Dev nD) (t : Fin cfg1.N) : mblk V c t = Mt V c := by
  have hi := hidx t
  funext y
  unfold mblk iblk1
  rw [View.read_apply]
  show V c main_v2_0 (((cfg1.win 2).blk t).view.emb y) = V c main_v2_0 y
  refine congrArg (V c main_v2_0) (funext fun a => Fin.ext ?_)
  match a with
  | ⟨0, _⟩ => show win1_2.index t 0 * 128 + 1 * (y 0).val = (y 0).val; rw [hi.2.2.2.1]; omega
  | ⟨1, _⟩ => show win1_2.index t 1 * 128 + 1 * (y 1).val = (y 1).val; rw [hi.2.2.2.2.1]; omega

/-- The block of the table of counts is the whole table, at every point. -/
theorem cblk_eq (c : Dev nD) (t : Fin cfg1.N) : cblk V c t = Ct V c := by
  have hi := hidx t
  funext y
  unfold cblk iblk1
  rw [View.read_apply]
  show V c main_v2_1 (((cfg1.win 3).blk t).view.emb y) = V c main_v2_1 y
  refine congrArg (V c main_v2_1) (funext fun a => Fin.ext ?_)
  match a with
  | ⟨0, _⟩ => show win1_3.index t 0 * 128 + 1 * (y 0).val = (y 0).val; rw [hi.2.2.2.2.2.1]; omega
  | ⟨1, _⟩ => show win1_3.index t 1 * 128 + 1 * (y 1).val = (y 1).val; rw [hi.2.2.2.2.2.2.1]; omega

/-! ## The running table, point by point -/

/-- One tile's contribution to entry `j` of the table of weighted sums: the sum over the tile's rows of the indicator
    "the row's label is class `j 0`" times the row's weight times the row's entry at `j 1`. -/
def tileTerm (c : Dev nD) (t : Fin 123) (j : S128x128.Idx) : EReal :=
  ∑ r : Fin 8192,
    hot (lp V c (ix1 (tileRow t r))) (BitVec.ofNat 32 (j 0).val) *
      (rowWeight (xprow (xp V c) (tileRow t r)) (lookM (Mt V c) (lp V c (ix1 (tileRow t r))))
          (lookC (Ct V c) (lp V c (ix1 (tileRow t r))))
        * xp V c (ix2 (tileRow t r) (j 1)))

/-- The same with the tile given as a natural number: nothing past the last tile. -/
def tileTermN (c : Dev nD) (t : ℕ) (j : S128x128.Idx) : EReal :=
  if h : t < 123 then tileTerm V c ⟨t, h⟩ j else 0

/-- ONE GRID POINT'S STEP: over the blocks the point reads, the body adds the point's tile term to the running
    table — the step of one tile, with each block entry read at its place in the padded arrays. -/
theorem step_point (c : Dev nD) (t : Fin cfg1.N) (acc : Vec Ideal S128x128 .f32) (j : S128x128.Idx) :
    k1_pay1 (F := Ideal) (k1_pay3 (xblk V c t)) (k1_pay4 (lblk V c t)) (k1_pay5 (lblk V c t) (cblk V c t))
        (k1_pay6 (xblk V c t) (lblk V c t) (mblk V c t)) (k1_pay7 (lblk V c t) (cblk V c t)) (k1_pay8 (F := Ideal)) acc j
      = acc j + tileTermN V c t.val j := by
  have hN : t.val < 123 := lt_of_lt_of_eq t.isLt (show cfg1.N = 123 from N_1)
  refine (Pay1.step_apply (xblk V c t) (lblk V c t) (mblk V c t) (cblk V c t) acc j).trans ?_
  unfold tileTermN
  rw [dif_pos hN]
  unfold tileTerm
  refine congrArg (fun s => acc j + s) (Finset.sum_congr rfl fun r _ => ?_)
  have hr : 8192 * t.val + r.val < 1007616 := by have := r.isLt; omega
  have hrow : (fun k => xblk V c t (ix2 r k)) = xprow (xp V c) (tileRow ⟨t.val, hN⟩ r) :=
    funext fun k => xblk_apply V c t r k hr
  rw [hrow, mblk_eq, cblk_eq, lblk_apply V c t r hr, xblk_apply V c t r (j 1) hr]
  rfl

/-- THE INVARIANT: after grid point `n` the window's buffer holds the tile terms of the points 0 … n, summed. By
    induction on the point: the first point resets the table to zero and adds its term (0 + s = s), every later
    point adds its term to what the point before left. -/
theorem outsAt_eq (c : Dev nD) : ∀ (n : ℕ) (hn : n < cfg1.N) (j : S128x128.Idx),
    outsAt1 V c n hn j = ∑ t ∈ Finset.range (n + 1), tileTermN V c t j
  | 0, hn, j => by
    rw [outsAt1_A V c ⟨0, hn⟩ rfl]
    refine (congrFun (out_A (F := Ideal) c (grid1.coords ⟨0, hn⟩) (ms1_0 ⟨0, hn⟩) (hs1_0 ⟨0, hn⟩) (ms1_1 ⟨0, hn⟩)
      (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩)
      ((hcond1_0 ⟨0, hn⟩).mpr rfl) (xblk V c ⟨0, hn⟩) (lblk V c ⟨0, hn⟩) (mblk V c ⟨0, hn⟩) (cblk V c ⟨0, hn⟩)) j).trans ?_
    rw [Pay1.pay2_eq]
    refine (step_point V c ⟨0, hn⟩ (fun _ => (0 : EReal)) j).trans ?_
    rw [Finset.sum_range_one]
    exact zero_add _
  | n + 1, hn, j => by
    have hN : n + 1 < 123 := lt_of_lt_of_eq hn (show cfg1.N = 123 from N_1)
    have hB : ¬(⟨n + 1, hn⟩ : Fin cfg1.N).val % 123 = 0 := by dsimp only; omega
    rw [outsAt1_B V c ⟨n + 1, hn⟩ hB]
    refine (congrFun (out_B (F := Ideal) c (grid1.coords ⟨n + 1, hn⟩) (ms1_0 ⟨n + 1, hn⟩) (hs1_0 ⟨n + 1, hn⟩)
      (ms1_1 ⟨n + 1, hn⟩) (hs1_1 ⟨n + 1, hn⟩) (ms1_2 ⟨n + 1, hn⟩) (hs1_2 ⟨n + 1, hn⟩) (ms1_3 ⟨n + 1, hn⟩)
      (hs1_3 ⟨n + 1, hn⟩) (ms1_4 ⟨n + 1, hn⟩) (hs1_4 ⟨n + 1, hn⟩) (fun h => hB ((hcond1_0 ⟨n + 1, hn⟩).mp h))
      (xblk V c ⟨n + 1, hn⟩) (lblk V c ⟨n + 1, hn⟩) (mblk V c ⟨n + 1, hn⟩) (cblk V c ⟨n + 1, hn⟩)
      (outsAt1 V c n (Nat.lt_of_succ_lt hn))) j).trans ?_
    refine (step_point V c ⟨n + 1, hn⟩ (outsAt1 V c n (Nat.lt_of_succ_lt hn)) j).trans ?_
    rw [Finset.sum_range_succ _ (n + 1), outsAt_eq c n (Nat.lt_of_succ_lt hn) j]

/-! ## The array after the whole grid -/

/-- After the second launch the table of weighted sums holds the tile-by-tile sum over the class data the
    first launch left. -/
theorem region1_P (c : Dev nD) :
    (dat1 (F := Ideal) V c).arrAt 4 cfg1.N = tileP (V c main_v0) (V c main_v1) (V c main_v2_0) (V c main_v2_1) := by
  refine (Last.last1_4 V c).trans (funext fun j => ?_)
  refine (outsAt_eq V c 122 (by decide) j).trans ?_
  unfold tileP
  rw [Finset.sum_range (fun t => tileTermN V c t j)]
  refine Finset.sum_congr rfl fun t _ => ?_
  unfold tileTermN
  rw [dif_pos t.isLt]
  rfl

end Cert.KernelIdeal.Region1

end
-- ==== Proof.KHost.lean ====
/-
  The host operations around the two launches, read at an index.

  Before the first launch the two arguments are padded along the row axis from 1000000 to 1007616 rows: the
  features with the integer constant 0 converted to a float, which is the extended real zero, the labels with the
  word 100. After the second launch the count table's column 0 and the weighted sums are cut to rows 0 … 99 and
  divided, the divisor the larger of the count and one.
-/
import proofs.«416101_j13142599925900_1_alg».proof.Proof.Gen.KernelIdeal.Frame
import proofs.«416101_j13142599925900_1_alg».proof.Proof.Spec
import Idealize.ShloMosaic.Lib.KernelVsHost
import Idealize.ShloMosaic.Lib.IdealHost
import Idealize.ShloMosaic.Lib.Pipeline.Value

set_option maxRecDepth 16384

noncomputable section

open scoped BigOperators

namespace Cert.KernelIdeal.HostSide

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Proto

variable (m : (ℓ : Loc nD τ sig) → Buf (Elt Ideal) ℓ) (ρ : Dev nD → PrngReg)

/-! ## Before the first launch: the two padded arguments

Each buffer's contents at the first launch, walked back through the host stretches to the launch memory, is one
`pad` term over the argument. Read at an index, a row below 1000000 lies inside the operand (low padding 0, no
interior padding) and holds the argument's entry; a row from 1000000 on lies in the high padding and holds the
padding value. -/

/-- The padded labels as the one `pad` term over the launch memory. -/
theorem lab_term (c : Dev nD) :
    (V4 (F := Ideal) m ρ c main_v1 : S1007616.Idx → BitVec 32)
      = pad S1007616 ![0] ![7616] ![0] (m ((c : Thread nD τ).loc main_arg1)) (constantI S_ 32 100#32)
          pads_S1000000_S1007616_076160 h_S_ := by
  show StableHlo.after hostOps0_3 (W3 (F := Ideal) m ρ c) (Proc.devRef .tc main_v1) = _
  after_results
  rfl

/-- The padded features as the one `pad` term over the launch memory; the padding value is the integer constant 0
    converted to a float. -/
theorem feat_term (c : Dev nD) :
    (V4 (F := Ideal) m ρ c main_v0 : S1007616x128.Idx → EReal)
      = pad S1007616x128 ![0, 0] ![7616, 0] ![0, 0] (m ((c : Thread nD τ).loc main_arg0))
          (sitofp (F := Ideal) .f32 (constantI S_ 32 0#32)) pads_S1000000x128_S1007616x128_076160_000 h_S_ := by
  show StableHlo.after hostOps0_3 (W3 (F := Ideal) m ρ c) (Proc.devRef .tc main_v0) = _
  after_results
  rfl

/-- The first launch finds the labels padded with the word 100. -/
theorem entry_lab (c : Dev nD) :
    V4 (F := Ideal) m ρ c main_v1 = padL (m ((c : Thread nD τ).loc main_arg1)) := by
  refine (lab_term m ρ c).trans (funext fun i => ?_)
  unfold padL
  by_cases h : (i 0).val < 1000000
  · rw [dif_pos h]
    exact pad_apply_of_inside ![0] ![7616] ![0] _ _ pads_S1000000_S1007616_076160 h_S_ i (ix1 ⟨(i 0).val, h⟩)
      (fun a => by fin_cases a; simp)
  · rw [dif_neg h]
    refine (pad_apply_of_not_inside (s := S1000000) ![0] ![7616] ![0] _ _ pads_S1000000_S1007616_076160 h_S_ i 0 ?_).trans rfl
    rintro ⟨-, -, h3⟩
    exact h (by simpa using h3)

/-- The first launch finds the features padded with zero rows. -/
theorem entry_feat (c : Dev nD) :
    V4 (F := Ideal) m ρ c main_v0 = padX (m ((c : Thread nD τ).loc main_arg0)) := by
  refine (feat_term m ρ c).trans (funext fun i => ?_)
  unfold padX
  by_cases h : (i 0).val < 1000000
  · rw [dif_pos h]
    exact pad_apply_of_inside ![0, 0] ![7616, 0] ![0, 0] _ _ pads_S1000000x128_S1007616x128_076160_000 h_S_ i
      (ix2 ⟨(i 0).val, h⟩ (i 1)) (fun a => by fin_cases a <;> simp)
  · rw [dif_neg h]
    refine (pad_apply_of_not_inside (s := S1000000x128) ![0, 0] ![7616, 0] ![0, 0] _ _ pads_S1000000x128_S1007616x128_076160_000 h_S_ i 0
      ?_).trans ?_
    · rintro ⟨-, -, h3⟩
      exact h (by simpa using h3)
    · show (((0#32 : BitVec 32).toInt : ℝ) : EReal) = 0
      simp

/-! ## After the second launch: the division of rows 0 … 99

The host operations after the launches form one term over the two tables: the count table's column 0, rows 0 … 99,
reshaped to a vector, its larger with the constant one, spread back along the columns, dividing rows 0 … 99 of the
weighted sums. Read at an index `j` every layout operation names the operand's index from `j`'s coordinates: a slice
at offset 0 keeps them, the reshape of a one-column array to a vector keeps the row, a spread along a new axis
forgets it. -/

/-- The host operations' term over any two tables is `finish`. -/
theorem finish_read (P CN : S128x128.Idx → EReal) :
    Host.divf (F := Ideal) (φ := .f32) (extractStridedSlice S100x128 ![0, 0] P slices_S128x128_S100x128_0_0)
      (broadcastInDim S100x128 ![0, 1] bcast_S100x1_S100x128_0_1
        (broadcastInDim S100x1 ![0] bcast_S100_S100x1_0
          (maximumf (F := Ideal) (φ := .f32)
            (shapeCast S100 (extractStridedSlice S100x1 ![0, 0] CN slices_S128x128_S100x1_0_0) shapeCasts_S100x1_S100)
            (broadcastInDim S100 ![] bcast_S_S100 (constant (F := Ideal) S_ .f32 0x3F800000#32)))))
      = finish P CN := by
  funext j
  have hj : (j 0).val < 128 := Nat.lt_trans (idx2_lt0 j) (by decide)
  -- the quotient at `j`, then each operand read there
  rw [hostDivf_apply]
  unfold finish
  congr 1
  · -- rows 0 … 99 of the weighted sums
    exact extractStridedSlice_apply ![0, 0] P slices_S128x128_S100x128_0_0 j (ix2 ⟨(j 0).val, hj⟩ (j 1))
      (fun a => by fin_cases a <;> simp)
  · -- the count: spread along the columns, spread along a unit axis, the larger with one
    refine (broadcastInDim_apply (s := S100x1) ![0, 1] bcast_S100x1_S100x128_0_1 _ j (ix2 (j 0) (0 : Fin 1))
      (fun a => by fin_cases a <;> simp)).trans ?_
    refine (broadcastInDim_apply (s := S100) ![0] bcast_S100_S100x1_0 _ (ix2 (j 0) (0 : Fin 1)) (ix1 (j 0))
      (fun a => by fin_cases a; simp)).trans ?_
    refine (maximumf_apply _ _ _).trans ?_
    congr 1
    · -- the reshape keeps the row; the slice keeps row and column 0
      refine (shapeCast_apply (s := S100x1) _ shapeCasts_S100x1_S100 (ix1 (j 0)) (ix2 (j 0) (0 : Fin 1))
        (by rw [Shape.rowMajor_val_two, Shape.rowMajor_val_one]; simp)).trans ?_
      exact extractStridedSlice_apply (s := S128x128) ![0, 0] CN slices_S128x128_S100x1_0_0 (ix2 (j 0) (0 : Fin 1))
        (ix2 ⟨(j 0).val, hj⟩ (0 : Fin 128)) (fun a => by fin_cases a <;> simp)
    · -- the constant one
      refine (broadcastInDim_scalar_apply bcast_S_S100 _ _).trans ?_
      exact Ideal.ofBits_one_f32

/-- The host operations after the launches divide rows 0 … 99 of the weighted sums by the larger of the count and one. -/
theorem exit_result (c : Dev nD) :
    W7 (F := Ideal) m ρ c (Proc.devRef .tc main_v11)
      = finish (W6 (F := Ideal) m ρ c (Proc.devRef .tc main_v3)) (W6 (F := Ideal) m ρ c (Proc.devRef .tc main_v2_1)) := by
  show StableHlo.after hostOps2 (W6 (F := Ideal) m ρ c) (Proc.devRef .tc main_v11) = _
  after_results
  exact finish_read _ _

end Cert.KernelIdeal.HostSide

end
-- ==== Proof.KValue.lean ====
import proofs.«416101_j13142599925900_1_alg».proof.Proof.Gen.KernelIdeal.Frame
import proofs.«416101_j13142599925900_1_alg».proof.Proof.Spec
import proofs.«416101_j13142599925900_1_alg».proof.Proof.PureSums
import proofs.«416101_j13142599925900_1_alg».proof.Proof.KRegion0
import proofs.«416101_j13142599925900_1_alg».proof.Proof.KRegion1
import proofs.«416101_j13142599925900_1_alg».proof.Proof.KHost

set_option maxRecDepth 16384

noncomputable section

open scoped BigOperators

namespace Cert.KernelIdeal.KValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Proto

variable (m : (ℓ : Loc nD τ sig) → Buf (Elt Ideal) ℓ) (ρ : Dev nD → PrngReg)

/-- The second launch finds the padded features: the first launch only reads them. -/
theorem mid_feat (c : Dev nD) : V5 (F := Ideal) m ρ c main_v0 = padX (m ((c : Thread nD τ).loc main_arg0)) :=
  (W5_arr m ρ c 0).trans (((dat0 (V4 m ρ) c).arrAt_in 0 rfl _).trans ((A_eq0 (V4 m ρ) c 0).trans (HostSide.entry_feat m ρ c)))

/-- The second launch finds the padded labels: the first launch only reads them. -/
theorem mid_lab (c : Dev nD) : V5 (F := Ideal) m ρ c main_v1 = padL (m ((c : Thread nD τ).loc main_arg1)) :=
  (W5_arr m ρ c 1).trans (((dat0 (V4 m ρ) c).arrAt_in 1 rfl _).trans ((A_eq0 (V4 m ρ) c 1).trans (HostSide.entry_lab m ρ c)))

/-- The second launch finds the table of summed unit vectors the first launch accumulated. -/
theorem mid_M (c : Dev nD) : V5 (F := Ideal) m ρ c main_v2_0
    = tileM (padX (m ((c : Thread nD τ).loc main_arg0))) (padL (m ((c : Thread nD τ).loc main_arg1))) := by
  refine (W5_arr m ρ c 2).trans ((Region0.region0_M (V4 m ρ) c).trans ?_)
  rw [HostSide.entry_feat, HostSide.entry_lab]

/-- The second launch finds the table of counts the first launch accumulated. -/
theorem mid_C (c : Dev nD) : V5 (F := Ideal) m ρ c main_v2_1
    = tileC (padL (m ((c : Thread nD τ).loc main_arg1))) := by
  refine (W5_arr m ρ c 3).trans ((Region0.region0_C (V4 m ρ) c).trans ?_)
  rw [HostSide.entry_lab]

/-- After the second launch the table of weighted sums is the tiled sum over the padded arrays. -/
theorem end_P (c : Dev nD) : W6 (F := Ideal) m ρ c (Proc.devRef .tc main_v3)
    = tileP (padX (m ((c : Thread nD τ).loc main_arg0))) (padL (m ((c : Thread nD τ).loc main_arg1)))
        (tileM (padX (m ((c : Thread nD τ).loc main_arg0))) (padL (m ((c : Thread nD τ).loc main_arg1))))
        (tileC (padL (m ((c : Thread nD τ).loc main_arg1)))) := by
  refine (W6_arr m ρ c 4).trans ((Region1.region1_P (V5 m ρ) c).trans ?_)
  rw [mid_feat, mid_lab, mid_M, mid_C]

/-- The second launch only reads the table of counts. -/
theorem end_C (c : Dev nD) : W6 (F := Ideal) m ρ c (Proc.devRef .tc main_v2_1)
    = tileC (padL (m ((c : Thread nD τ).loc main_arg1))) :=
  (W6_arr m ρ c 3).trans (((dat1 (V5 m ρ) c).arrAt_in 3 rfl _).trans ((A_eq1 (V5 m ρ) c 3).trans (mid_C m ρ c)))

/-- THE KERNEL COMPUTES THE PROTOTYPES: the result buffer after the last host operations is `proto` of the
    two arguments. -/
theorem result_eq (c : Dev nD) : W7 (F := Ideal) m ρ c (Proc.devRef .tc main_v11)
    = proto (m ((c : Thread nD τ).loc main_arg0)) (m ((c : Thread nD τ).loc main_arg1)) := by
  rw [HostSide.exit_result, end_P, end_C]
  exact finish_eq _ _

end Cert.KernelIdeal.KValue

end
-- ==== Proof.RefScatter.lean ====
import proofs.«416101_j13142599925900_1_alg».proof.Proof.Gen.ReferenceIdeal
import proofs.«416101_j13142599925900_1_alg».proof.Proof.Spec
import Idealize.ShloMosaic.Lib.IdealHost
import Idealize.ShloMosaic.Lib.ValueIdxRank1

set_option maxRecDepth 16384

noncomputable section

open scoped BigOperators

namespace Cert.ReferenceIdeal.RefScatter

open Idealize.ShloMosaic Idealize.ShloMosaic.ValueIdx
open Cert.ReferenceIdeal Cert.ReferenceIdeal.Gen Cert.Proto

/-! ## A class number as a 32-bit word -/

/-- The word of a class number below 100, read as a signed integer, is the class number. -/
theorem toInt_class (c : Fin 100) : (BitVec.ofNat 32 c.val).toInt = (c.val : Int) := by
  have hc := c.isLt
  rw [BitVec.toInt_eq_toNat_cond, BitVec.toNat_ofNat, Nat.mod_eq_of_lt (by omega)]
  rw [if_pos (by omega)]

/-- A word whose signed reading is a class number below 100 is the word of that number. -/
theorem word_eq_of_toInt (v : BitVec 32) (c : Fin 100) (h : v.toInt = (c.val : Int)) : v = BitVec.ofNat 32 c.val :=
  BitVec.eq_of_toInt_eq (h.trans (toInt_class c).symm)

/-! ## The scatters -/

/-- The scatter-indices index the vector scatter reads for update row j is (j, 0). -/
theorem scatterVec_siIdx (j : S1000000.Idx) (k : Fin scatter_S100_S1000000x1_S1000000_n_0_0_1.scatterDimsToOperandDims.length) :
    scatter_S100_S1000000x1_S1000000_n_0_0_1.siIdx j k = ix2 (j 0) (0 : Fin 1) := by
  funext b; refine Fin.ext ?_
  match b with
  | ⟨0, _⟩ => rfl
  | ⟨1, _⟩ =>
    show k.val = 0
    have hk : k.val < 1 := k.isLt
    omega

/-- Where update row j of the vector scatter lands on the class axis: at its index word read signed (the axis is
    inserted, so there is no window coordinate). -/
theorem scatterVec_pos (idx : IVec S1000000x1 32) (j : S1000000.Idx) (a : Fin 1) :
    scatter_S100_S1000000x1_S1000000_n_0_0_1.start j idx a + (scatter_S100_S1000000x1_S1000000_n_0_0_1.window j a : Int)
      = (idx (ix2 (j 0) (0 : Fin 1))).toInt := by
  obtain rfl : a = 0 := Subsingleton.elim _ _
  unfold ScatterDims.start ScatterDims.window
  rw [dif_pos (show (0 : Fin 1) ∈ scatter_S100_S1000000x1_S1000000_n_0_0_1.scatterDimsToOperandDims from List.mem_singleton.mpr rfl),
    dif_neg (show (0 : Fin 1) ∉ scatter_S100_S1000000x1_S1000000_n_0_0_1.sKept by decide), scatterVec_siIdx]
  simp

/-- Update row j of the vector scatter lands on class c exactly when its index word is the word of c. -/
theorem scatterVec_lands (idx : IVec S1000000x1 32) (j : S1000000.Idx) (c : Fin 100) :
    scatter_S100_S1000000x1_S1000000_n_0_0_1.resultIdx? j idx = some (ix1 c)
      ↔ idx (ix2 (j 0) (0 : Fin 1)) = BitVec.ofNat 32 c.val := by
  unfold ScatterDims.resultIdx?
  constructor
  · intro h
    split at h
    · rename_i hall
      have h0 : (scatter_S100_S1000000x1_S1000000_n_0_0_1.start j idx 0
          + (scatter_S100_S1000000x1_S1000000_n_0_0_1.window j 0 : Int)).toNat = c.val :=
        congrArg Fin.val (congrFun (Option.some.inj h) 0)
      have h1 := (hall 0).1
      rw [scatterVec_pos] at h0 h1
      exact word_eq_of_toInt _ c (by omega)
    · exact absurd h (by simp)
  · intro h
    have hv : ∀ a, scatter_S100_S1000000x1_S1000000_n_0_0_1.start j idx a
        + (scatter_S100_S1000000x1_S1000000_n_0_0_1.window j a : Int) = (c.val : Int) := fun a => by
      rw [scatterVec_pos, h, toInt_class]
    have hall : ∀ a, 0 ≤ scatter_S100_S1000000x1_S1000000_n_0_0_1.start j idx a
          + (scatter_S100_S1000000x1_S1000000_n_0_0_1.window j a : Int)
        ∧ scatter_S100_S1000000x1_S1000000_n_0_0_1.start j idx a
          + (scatter_S100_S1000000x1_S1000000_n_0_0_1.window j a : Int) < (S100.size a : Int) := fun a => by
      rw [hv a]
      obtain rfl : a = 0 := Subsingleton.elim _ _
      have := c.isLt
      refine ⟨by omega, ?_⟩
      show (c.val : Int) < ((100 : Nat) : Int)
      omega
    rw [dif_pos hall]
    congr 1
    funext a
    obtain rfl : a = 0 := Subsingleton.elim _ _
    refine Fin.ext ?_
    show (scatter_S100_S1000000x1_S1000000_n_0_0_1.start j idx 0
      + (scatter_S100_S1000000x1_S1000000_n_0_0_1.window j 0 : Int)).toNat = c.val
    rw [hv]
    exact Int.toNat_natCast _

/-- A scatter-add of one number per row into a vector of 100 classes: class `c` receives its operand entry
    plus the updates of exactly the rows whose index word is `c` (a word outside 0 … 99 lands nowhere). -/
theorem scatterVec_apply (x : FVec Ideal S100 .f32) (idx : IVec S1000000x1 32) (upd : FVec Ideal S1000000 .f32) (c : Fin 100) :
    Ideal.hostScatterAdd scatter_S100_S1000000x1_S1000000_n_0_0_1 x idx upd (ix1 c)
      = x (ix1 c) + ∑ i : Fin 1000000, hot (idx (ix2 i (0 : Fin 1))) (BitVec.ofNat 32 c.val) * upd (ix1 i) := by
  unfold Ideal.hostScatterAdd
  refine congrArg (fun z => x (ix1 c) + z) ?_
  rw [Finset.sum_filter]
  refine Fintype.sum_equiv idxEquiv1 _ _ (fun j => ?_)
  obtain ⟨i, rfl⟩ : ∃ i, j = ix1 i := ⟨j 0, eq_ix1 j⟩
  show (if scatter_S100_S1000000x1_S1000000_n_0_0_1.resultIdx? (ix1 i) idx = some (ix1 c) then upd (ix1 i) else 0)
    = hot (idx (ix2 i (0 : Fin 1))) (BitVec.ofNat 32 c.val) * upd (ix1 i)
  unfold hot
  by_cases hw : idx (ix2 i (0 : Fin 1)) = BitVec.ofNat 32 c.val
  · rw [if_pos ((scatterVec_lands idx (ix1 i) c).mpr hw), if_pos hw, one_mul]
  · rw [if_neg (fun hl => hw ((scatterVec_lands idx (ix1 i) c).mp hl)), if_neg hw, zero_mul]

/-- The scatter-indices index the matrix scatter reads for update entry (j, d) is (j, 0). -/
theorem scatterMat_siIdx (j : S1000000x128.Idx) (k : Fin scatter_S100x128_S1000000x1_S1000000x128_1_0_0_1.scatterDimsToOperandDims.length) :
    scatter_S100x128_S1000000x1_S1000000x128_1_0_0_1.siIdx j k = ix2 (j 0) (0 : Fin 1) := by
  funext b; refine Fin.ext ?_
  match b with
  | ⟨0, _⟩ => rfl
  | ⟨1, _⟩ =>
    show k.val = 0
    have hk : k.val < 1 := k.isLt
    omega

/-- Where an update entry of the matrix scatter lands on the class axis: at its row's index word read signed (the
    axis is inserted, so there is no window coordinate). -/
theorem scatterMat_pos0 (idx : IVec S1000000x1 32) (j : S1000000x128.Idx) :
    scatter_S100x128_S1000000x1_S1000000x128_1_0_0_1.start j idx 0
        + (scatter_S100x128_S1000000x1_S1000000x128_1_0_0_1.window j 0 : Int)
      = (idx (ix2 (j 0) (0 : Fin 1))).toInt := by
  unfold ScatterDims.start ScatterDims.window
  rw [dif_pos (show (0 : Fin 2) ∈ scatter_S100x128_S1000000x1_S1000000x128_1_0_0_1.scatterDimsToOperandDims from List.mem_singleton.mpr rfl),
    dif_neg (show (0 : Fin 2) ∉ scatter_S100x128_S1000000x1_S1000000x128_1_0_0_1.sKept by decide), scatterMat_siIdx]
  simp

/-- Where an update entry of the matrix scatter lands on the column axis: the axis is not in the index map, so the
    start is 0, and the window coordinate is the update's own column. -/
theorem scatterMat_pos1 (idx : IVec S1000000x1 32) (j : S1000000x128.Idx) :
    scatter_S100x128_S1000000x1_S1000000x128_1_0_0_1.start j idx 1
        + (scatter_S100x128_S1000000x1_S1000000x128_1_0_0_1.window j 1 : Int)
      = ((j 1).val : Int) := by
  unfold ScatterDims.start ScatterDims.window
  rw [dif_neg (show (1 : Fin 2) ∉ scatter_S100x128_S1000000x1_S1000000x128_1_0_0_1.scatterDimsToOperandDims by decide),
    dif_pos (show (1 : Fin 2) ∈ scatter_S100x128_S1000000x1_S1000000x128_1_0_0_1.sKept by decide)]
  rw [Int.zero_add]
  rfl

/-- An update entry of the matrix scatter lands on entry (c, d) exactly when its row's index word is the word of c
    and its column is d. -/
theorem scatterMat_lands (idx : IVec S1000000x1 32) (j : S1000000x128.Idx) (c : Fin 100) (d : Fin 128) :
    scatter_S100x128_S1000000x1_S1000000x128_1_0_0_1.resultIdx? j idx = some (ix2 c d)
      ↔ idx (ix2 (j 0) (0 : Fin 1)) = BitVec.ofNat 32 c.val ∧ j 1 = d := by
  unfold ScatterDims.resultIdx?
  constructor
  · intro h
    split at h
    · rename_i hall
      have h0 : (scatter_S100x128_S1000000x1_S1000000x128_1_0_0_1.start j idx 0
          + (scatter_S100x128_S1000000x1_S1000000x128_1_0_0_1.window j 0 : Int)).toNat = c.val :=
        congrArg Fin.val (congrFun (Option.some.inj h) 0)
      have h1 : (scatter_S100x128_S1000000x1_S1000000x128_1_0_0_1.start j idx 1
          + (scatter_S100x128_S1000000x1_S1000000x128_1_0_0_1.window j 1 : Int)).toNat = d.val :=
        congrArg Fin.val (congrFun (Option.some.inj h) 1)
      have h2 := (hall 0).1
      rw [scatterMat_pos0] at h0 h2
      rw [scatterMat_pos1] at h1
      exact ⟨word_eq_of_toInt _ c (by omega), Fin.ext (by omega)⟩
    · exact absurd h (by simp)
  · rintro ⟨h, rfl⟩
    have hv0 : scatter_S100x128_S1000000x1_S1000000x128_1_0_0_1.start j idx 0
        + (scatter_S100x128_S1000000x1_S1000000x128_1_0_0_1.window j 0 : Int) = (c.val : Int) := by
      rw [scatterMat_pos0, h, toInt_class]
    have hv1 := scatterMat_pos1 idx j
    have hall : ∀ a, 0 ≤ scatter_S100x128_S1000000x1_S1000000x128_1_0_0_1.start j idx a
          + (scatter_S100x128_S1000000x1_S1000000x128_1_0_0_1.window j a : Int)
        ∧ scatter_S100x128_S1000000x1_S1000000x128_1_0_0_1.start j idx a
          + (scatter_S100x128_S1000000x1_S1000000x128_1_0_0_1.window j a : Int) < (S100x128.size a : Int) := by
      refine Fin.forall_fin_two.mpr ⟨?_, ?_⟩
      · rw [hv0]
        have := c.isLt
        refine ⟨by omega, ?_⟩
        show (c.val : Int) < ((100 : Nat) : Int)
        omega
      · rw [hv1]
        have := (j 1).isLt
        refine ⟨by omega, ?_⟩
        show ((j 1).val : Int) < ((128 : Nat) : Int)
        have h128 : (j 1).val < 128 := (j 1).isLt
        omega
    rw [dif_pos hall]
    congr 1
    funext a
    refine Fin.ext ?_
    match a with
    | ⟨0, _⟩ =>
      show (scatter_S100x128_S1000000x1_S1000000x128_1_0_0_1.start j idx 0
        + (scatter_S100x128_S1000000x1_S1000000x128_1_0_0_1.window j 0 : Int)).toNat = c.val
      rw [hv0]
      exact Int.toNat_natCast _
    | ⟨1, _⟩ =>
      show (scatter_S100x128_S1000000x1_S1000000x128_1_0_0_1.start j idx 1
        + (scatter_S100x128_S1000000x1_S1000000x128_1_0_0_1.window j 1 : Int)).toNat = (j 1).val
      rw [hv1]
      exact Int.toNat_natCast _

/-- A scatter-add of one row of 128 numbers per input row into a table of 100 class rows: entry (c, d) receives
    its operand entry plus the updates at column d of exactly the rows whose index word is `c`. -/
theorem scatterMat_apply (x : FVec Ideal S100x128 .f32) (idx : IVec S1000000x1 32) (upd : FVec Ideal S1000000x128 .f32)
    (c : Fin 100) (d : Fin 128) :
    Ideal.hostScatterAdd scatter_S100x128_S1000000x1_S1000000x128_1_0_0_1 x idx upd (ix2 c d)
      = x (ix2 c d) + ∑ i : Fin 1000000, hot (idx (ix2 i (0 : Fin 1))) (BitVec.ofNat 32 c.val) * upd (ix2 i d) := by
  unfold Ideal.hostScatterAdd
  refine congrArg (fun z => x (ix2 c d) + z) ?_
  rw [Finset.sum_filter, sum_idx2]
  refine Finset.sum_congr rfl fun i _ => ?_
  unfold hot
  by_cases hw : idx (ix2 i (0 : Fin 1)) = BitVec.ofNat 32 c.val
  · -- a row of class c: of its 128 entries exactly the one at column d lands on (c, d)
    rw [if_pos hw, one_mul, Finset.sum_eq_single d]
    · exact if_pos ((scatterMat_lands idx (ix2 i d) c d).mpr ⟨hw, rfl⟩)
    · intro b _ hb
      exact if_neg (fun hl => hb ((scatterMat_lands idx (ix2 i b) c d).mp hl).2)
    · intro hd
      exact absurd (Finset.mem_univ d) hd
  · -- a row of another class: none of its entries lands on (c, d)
    rw [if_neg hw, zero_mul]
    exact Finset.sum_eq_zero fun b _ => if_neg (fun hl => hw ((scatterMat_lands idx (ix2 i b) c d).mp hl).1)

/-! ## The gathers -/

/-- The start-indices index the vector gather reads for result row i is (i, 0). -/
theorem gatherVec_siIdx (j : S1000000.Idx) (k : Fin gather_S100_S1000000x1_S1000000_n_0_n_n_0_1_1.startIndexMap.length) :
    gather_S100_S1000000x1_S1000000_n_0_n_n_0_1_1.siIdx j k = ix2 (j 0) (0 : Fin 1) := by
  funext b; refine Fin.ext ?_
  match b with
  | ⟨0, _⟩ => rfl
  | ⟨1, _⟩ =>
    show k.val = 0
    have hk : k.val < 1 := k.isLt
    omega

/-- A gather from a vector of 100 classes at a row whose index word is the class `c` reads entry `c`. -/
theorem gatherVec_apply {α : Type} (x : S100.Idx → α) (idx : IVec S1000000x1 32) (i : Fin 1000000) (c : Fin 100)
    (h : idx (ix2 i (0 : Fin 1)) = BitVec.ofNat 32 c.val) :
    Host.gather gather_S100_S1000000x1_S1000000_n_0_n_n_0_1_1 x idx (ix1 i) = x (ix1 c) := by
  unfold Host.gather
  congr 1
  funext a
  obtain rfl : a = 0 := Subsingleton.elim _ _
  refine Fin.ext ?_
  show gather_S100_S1000000x1_S1000000_n_0_n_n_0_1_1.start (ix1 i) idx 0
      + gather_S100_S1000000x1_S1000000_n_0_n_n_0_1_1.batchCoord (ix1 i) 0
      + gather_S100_S1000000x1_S1000000_n_0_n_n_0_1_1.offCoord (ix1 i) 0 = c.val
  rw [GatherDims.batchCoord_eq_zero _ _ _ List.not_mem_nil,
    GatherDims.offCoord_eq_zero _ _ _ (fun hk => ((GatherDims.mem_sKept _ _).mp hk).1 (List.mem_singleton.mpr rfl))]
  unfold GatherDims.start
  rw [dif_pos (show (0 : Fin 1) ∈ gather_S100_S1000000x1_S1000000_n_0_n_n_0_1_1.startIndexMap from List.mem_singleton.mpr rfl),
    gatherVec_siIdx]
  show min (idx (ix2 i (0 : Fin 1))).toInt.toNat (100 - 1) + 0 + 0 = c.val
  rw [h, toInt_class]
  have := c.isLt
  omega

/-- The start-indices index the matrix gather reads for result entry (i, d) is (i, 0). -/
theorem gatherMat_siIdx (j : S1000000x128.Idx) (k : Fin gather_S100x128_S1000000x1_S1000000x128_1_0_n_n_0_1_1128.startIndexMap.length) :
    gather_S100x128_S1000000x1_S1000000x128_1_0_n_n_0_1_1128.siIdx j k = ix2 (j 0) (0 : Fin 1) := by
  funext b; refine Fin.ext ?_
  match b with
  | ⟨0, _⟩ => rfl
  | ⟨1, _⟩ =>
    show k.val = 0
    have hk : k.val < 1 := k.isLt
    omega

/-- The class coordinate the matrix gather reads: the axis is collapsed, so there is no offset, and its start is the
    index word read signed and clamped into 0 … 99. -/
theorem gatherMat_coord0 (idx : IVec S1000000x1 32) (j : S1000000x128.Idx) :
    (gather_S100x128_S1000000x1_S1000000x128_1_0_n_n_0_1_1128.operandIdx j idx 0).val
      = min (idx (ix2 (j 0) (0 : Fin 1))).toInt.toNat 99 := by
  show gather_S100x128_S1000000x1_S1000000x128_1_0_n_n_0_1_1128.start j idx 0
      + gather_S100x128_S1000000x1_S1000000x128_1_0_n_n_0_1_1128.batchCoord j 0
      + gather_S100x128_S1000000x1_S1000000x128_1_0_n_n_0_1_1128.offCoord j 0 = _
  rw [GatherDims.batchCoord_eq_zero _ _ _ List.not_mem_nil,
    GatherDims.offCoord_eq_zero _ _ _ (fun hk => ((GatherDims.mem_sKept _ _).mp hk).1 (List.mem_singleton.mpr rfl))]
  unfold GatherDims.start
  rw [dif_pos (show (0 : Fin 2) ∈ gather_S100x128_S1000000x1_S1000000x128_1_0_n_n_0_1_1128.startIndexMap from List.mem_singleton.mpr rfl),
    gatherMat_siIdx]
  rfl

/-- The column coordinate the matrix gather reads: the axis is not in the start index map, so its start is 0, and
    the offset coordinate is the result's column. -/
theorem gatherMat_coord1 (idx : IVec S1000000x1 32) (j : S1000000x128.Idx) :
    (gather_S100x128_S1000000x1_S1000000x128_1_0_n_n_0_1_1128.operandIdx j idx 1).val = (j 1).val := by
  show gather_S100x128_S1000000x1_S1000000x128_1_0_n_n_0_1_1128.start j idx 1
      + gather_S100x128_S1000000x1_S1000000x128_1_0_n_n_0_1_1128.batchCoord j 1
      + gather_S100x128_S1000000x1_S1000000x128_1_0_n_n_0_1_1128.offCoord j 1 = _
  rw [GatherDims.batchCoord_eq_zero _ _ _ List.not_mem_nil]
  unfold GatherDims.start
  rw [dif_neg (show (1 : Fin 2) ∉ gather_S100x128_S1000000x1_S1000000x128_1_0_n_n_0_1_1128.startIndexMap from
    fun hk => absurd (List.mem_singleton.mp hk) (by decide))]
  unfold GatherDims.offCoord
  rw [dif_pos (show (1 : Fin 2) ∈ gather_S100x128_S1000000x1_S1000000x128_1_0_n_n_0_1_1128.sKept from
    (GatherDims.mem_sKept _ _).mpr ⟨fun hk => absurd (List.mem_singleton.mp hk) (by decide), List.not_mem_nil⟩)]
  simp only [Nat.zero_add]
  rfl

/-- A gather of whole rows from a table of 100 class rows at a row whose index word is the class `c` reads row `c`. -/
theorem gatherMat_apply {α : Type} (x : S100x128.Idx → α) (idx : IVec S1000000x1 32) (i : Fin 1000000) (d : Fin 128) (c : Fin 100)
    (h : idx (ix2 i (0 : Fin 1)) = BitVec.ofNat 32 c.val) :
    Host.gather gather_S100x128_S1000000x1_S1000000x128_1_0_n_n_0_1_1128 x idx (ix2 i d) = x (ix2 c d) := by
  unfold Host.gather
  congr 1
  funext a
  refine Fin.ext ?_
  match a with
  | ⟨0, _⟩ =>
    refine (gatherMat_coord0 idx (ix2 i d)).trans ?_
    show min (idx (ix2 i (0 : Fin 1))).toInt.toNat 99 = c.val
    rw [h, toInt_class]
    have := c.isLt
    omega
  | ⟨1, _⟩ => exact gatherMat_coord1 idx (ix2 i d)

end Cert.ReferenceIdeal.RefScatter

end
-- ==== Proof.RefValue.lean ====
import proofs.«416101_j13142599925900_1_alg».proof.Proof.Gen.ReferenceIdeal.Run
import proofs.«416101_j13142599925900_1_alg».proof.Proof.Gen.ReferenceIdeal.Read
import proofs.«416101_j13142599925900_1_alg».proof.Proof.Spec
import proofs.«416101_j13142599925900_1_alg».proof.Proof.RefScatter
import Idealize.ShloMosaic.Lib.IdealHost

/-!
  The reference's composed result, read entry by entry, is the class prototypes of `Spec`.

  The reference scales each row to unit length, scatter-adds ones and unit vectors by label into the counts and the
  summed unit vectors of the 100 classes, gathers each row's class data back at the row's label (a negative label
  moved up by 100), forms the row's weight, scatter-adds the weighted rows by label, and divides by the larger of the
  count and one. Each scatter-add starts from zeros, so it is the sum over all rows of the indicator of "the row's
  label is the class" times the row's term: the form of `cnt`, `msum`, `psum`. Inside the last of these sums the
  indicator stands in front of the weight, so the gathers are only read at rows whose label is the class `c < 100`:
  there the label is not negative, the gathers read class `c`, and the weight is `wgt c i`; at every other row the
  indicator is zero and the term vanishes whatever the weight.
-/

set_option maxRecDepth 16384

noncomputable section

open scoped BigOperators

namespace Cert.ReferenceIdeal.RefValue

open Idealize.ShloMosaic Idealize.ShloMosaic.TcCoe Idealize.ShloMosaic.ValueIdx Idealize.SL.Sem
open Cert.ReferenceIdeal Cert.Proto

/-! ## Index equations: the reference's composed index functions at explicit coordinates -/

section Indices
variable (i : Fin 1000000) (d k : Fin 128) (c : Fin 100)

theorem idx_bcast_col : Read.idx_main_v3 (ix2 i d) = ix2 i (0 : Fin 1) := by
  funext a; match a with | ⟨0, _⟩ => rfl | ⟨1, _⟩ => rfl

theorem idx_norm_row : Read.idx_main_call0_v1 (Read.idx_main_call0_v2 (ix2 i (0 : Fin 1))) k = ix2 i k := by
  funext a; match a with | ⟨0, _⟩ => rfl | ⟨1, _⟩ => rfl

theorem idx_lab7 : Read.idx_main_v7 (ix2 i (0 : Fin 1)) = ix1 i := by
  funext a; match a with | ⟨0, _⟩ => rfl

theorem idx_lab10 : Read.idx_main_v10 (ix2 i (0 : Fin 1)) = ix1 i := by
  funext a; match a with | ⟨0, _⟩ => rfl

end Indices

section Indices2
variable (i : Fin 1000000) (d k : Fin 128) (c : Fin 100)

theorem idx_lab17 : Read.idx_main_v17 (ix2 i (0 : Fin 1)) = ix1 i := by
  funext a; match a with | ⟨0, _⟩ => rfl

theorem idx_lab26 : Read.idx_main_v26 (ix2 i (0 : Fin 1)) = ix1 i := by
  funext a; match a with | ⟨0, _⟩ => rfl

theorem idx_lab43 : Read.idx_main_v43 (ix2 i (0 : Fin 1)) = ix1 i := by
  funext a; match a with | ⟨0, _⟩ => rfl

theorem idx_row29 : Read.idx_main_v29 (ix1 i) k = ix2 i k := by
  funext a; match a with | ⟨0, _⟩ => rfl | ⟨1, _⟩ => rfl

theorem idx_row20 : Read.idx_main_v20 (ix1 i) k = ix2 i k := by
  funext a; match a with | ⟨0, _⟩ => rfl | ⟨1, _⟩ => rfl

theorem idx_col40 : Read.idx_main_v40 (ix2 i d) = ix2 i (0 : Fin 1) := by
  funext a; match a with | ⟨0, _⟩ => rfl | ⟨1, _⟩ => rfl

theorem idx_col39 : Read.idx_main_v39 (ix2 i (0 : Fin 1)) = ix1 i := by
  funext a; match a with | ⟨0, _⟩ => rfl

theorem idx_col48 : Read.idx_main_v48 (ix2 c d) = ix2 c (0 : Fin 1) := by
  funext a; match a with | ⟨0, _⟩ => rfl | ⟨1, _⟩ => rfl

theorem idx_col47 : Read.idx_main_v47 (ix2 c (0 : Fin 1)) = ix1 c := by
  funext a; match a with | ⟨0, _⟩ => rfl

end Indices2

/-- A class word 0 … 99 is not negative as a signed word. -/
theorem class_not_neg : ∀ c : Fin 100, IntOp.cmpi .slt (BitVec.ofNat 32 c.val) 0#32 = 0#1 := by decide

/-! ## The host's scatter-add at the ideal values is the exact sum, for any operands -/

theorem host_scatterVec (y6 : FVec Ideal S100 .f32) (y7 : IVec S1000000x1 32) (y5 : FVec Ideal S1000000 .f32) (c : Fin 100) :
    Host.scatterAdd (F := Ideal) (φ := .f32) Cert.ReferenceIdeal.scatter_S100_S1000000x1_S1000000_n_0_0_1 y6 y7 y5 (ix1 c)
      = y6 (ix1 c) + ∑ i : Fin 1000000, hot (y7 (ix2 i (0 : Fin 1))) (BitVec.ofNat 32 c.val) * y5 (ix1 i) :=
  RefScatter.scatterVec_apply y6 y7 y5 c

theorem host_scatterMat (y9 : FVec Ideal S100x128 .f32) (y10 : IVec S1000000x1 32) (y4 : FVec Ideal S1000000x128 .f32)
    (c : Fin 100) (d : Fin 128) :
    Host.scatterAdd (F := Ideal) (φ := .f32) Cert.ReferenceIdeal.scatter_S100x128_S1000000x1_S1000000x128_1_0_0_1 y9 y10 y4 (ix2 c d)
      = y9 (ix2 c d) + ∑ i : Fin 1000000, hot (y10 (ix2 i (0 : Fin 1))) (BitVec.ofNat 32 c.val) * y4 (ix2 i d) :=
  RefScatter.scatterMat_apply y9 y10 y4 c d

/-! ## The stages, read at explicit coordinates -/

section Stages
variable (x0 : (⟨S1000000x128, .f32⟩ : BufTy).Contents (Elt Ideal)) (x1 : (⟨S1000000, .i32⟩ : BufTy).Contents (Elt Ideal))

/-- The guarded row norm: the larger of the row's Euclidean norm and the guard. -/
theorem norm_apply (i : Fin 1000000) :
    Read.val_main_v2 (F := Ideal) x0 (ix2 i (0 : Fin 1))
      = max (Ideal.sqrt (∑ k : Fin 128, x0 (ix2 i k) * x0 (ix2 i k))) eps := by
  rw [Read.val_main_v2_apply, Read.val_main_v0_apply, Read.val_main_call0_v2_apply, Read.val_main_call0_v1_apply,
    Read.val_main_v1_apply, Read.val_main_cst_apply, Read.val_main_call0_cst_apply]
  simp only [Read.val_main_call0_v0_apply, idx_norm_row, Ideal.maximumf_def, Ideal.hostUnary_sqrt_def, Ideal.mulf_def,
    Ideal.ofBits_def, Ideal.ofBits_zero_f32, zero_add, eps]

/-- The unit vectors: each entry of a row over its guarded norm. -/
theorem unit_apply (i : Fin 1000000) (d : Fin 128) :
    Read.val_main_v4 (F := Ideal) x0 (ix2 i d) = rowUnit (xrow x0 i) d := by
  rw [Read.val_main_v4_apply, Read.val_main_v3_apply, idx_bcast_col, norm_apply, Ideal.hostDivf_def]
  unfold rowUnit xrow
  rfl

/-- The counts: a scatter-add of ones from a zero vector. -/
theorem count_apply (c : Fin 100) :
    Read.val_main_v8 (F := Ideal) x1 (ix1 c) = cnt x1 (BitVec.ofNat 32 c.val) := by
  unfold Read.val_main_v8
  rw [host_scatterVec, Read.val_main_v6_apply, Read.val_main_cst_1_apply,
    Ideal.ofBits_def, Ideal.ofBits_zero_f32, zero_add]
  unfold cnt
  refine Finset.sum_congr rfl fun i _ => ?_
  rw [Read.val_main_v7_apply, idx_lab7, Read.val_main_v5_apply, Read.val_main_cst_0_apply, Ideal.ofBits_def, Ideal.ofBits_one_f32]

/-- The summed unit vectors: a scatter-add of the unit vectors from a zero table. -/
theorem msum_apply (c : Fin 100) (d : Fin 128) :
    Read.val_main_v11 (F := Ideal) x0 x1 (ix2 c d) = msum x0 x1 (BitVec.ofNat 32 c.val) d := by
  unfold Read.val_main_v11
  rw [host_scatterMat, Read.val_main_v9_apply, Read.val_main_cst_2_apply,
    Ideal.ofBits_def, Ideal.ofBits_zero_f32, zero_add]
  unfold msum
  refine Finset.sum_congr rfl fun i _ => ?_
  rw [Read.val_main_v10_apply, idx_lab10, unit_apply]

/-- The label the gathers use (a negative word moved up by 100) is, at a row labelled with a class 0 … 99, that class. -/
theorem remap17_apply (i : Fin 1000000) (c : Fin 100) (h : x1 (ix1 i) = BitVec.ofNat 32 c.val) :
    Read.val_main_v17 (F := Ideal) x1 (ix2 i (0 : Fin 1)) = BitVec.ofNat 32 c.val := by
  rw [Read.val_main_v17_apply, idx_lab17, Read.val_main_v16_apply, Read.val_main_v13_apply, Read.val_main_v12_apply,
    Read.val_main_c_apply, h, class_not_neg, select_zero]

theorem remap26_apply (i : Fin 1000000) (c : Fin 100) (h : x1 (ix1 i) = BitVec.ofNat 32 c.val) :
    Read.val_main_v26 (F := Ideal) x1 (ix2 i (0 : Fin 1)) = BitVec.ofNat 32 c.val := by
  rw [Read.val_main_v26_apply, idx_lab26, Read.val_main_v25_apply, Read.val_main_v22_apply, Read.val_main_v21_apply,
    Read.val_main_c_5_apply, h, class_not_neg, select_zero]

/-- The gathered count of a row labelled with the class `c` is that class's count. -/
theorem gcount_apply (i : Fin 1000000) (c : Fin 100) (h : x1 (ix1 i) = BitVec.ofNat 32 c.val) :
    Read.val_main_v18 (F := Ideal) x1 (ix1 i) = cnt x1 (BitVec.ofNat 32 c.val) := by
  unfold Read.val_main_v18
  rw [RefScatter.gatherVec_apply _ _ i c (remap17_apply x1 i c h), count_apply]

/-- The gathered class vector of a row labelled with the class `c` is that class's summed unit vectors. -/
theorem gmsum_apply (i : Fin 1000000) (d : Fin 128) (c : Fin 100) (h : x1 (ix1 i) = BitVec.ofNat 32 c.val) :
    Read.val_main_v27 (F := Ideal) x0 x1 (ix2 i d) = msum x0 x1 (BitVec.ofNat 32 c.val) d := by
  unfold Read.val_main_v27
  rw [RefScatter.gatherMat_apply _ _ i d c (remap26_apply x1 i c h), msum_apply]

/-- The squared length of a row's unit vector. -/
theorem sq_apply (i : Fin 1000000) :
    Read.val_main_v20 (F := Ideal) x0 (ix1 i) = ∑ k : Fin 128, rowUnit (xrow x0 i) k * rowUnit (xrow x0 i) k := by
  rw [Read.val_main_v20_apply, Read.val_main_cst_4_apply, Ideal.ofBits_def, Ideal.ofBits_zero_f32, zero_add]
  refine Finset.sum_congr rfl fun k _ => ?_
  rw [idx_row20, Read.val_main_v19_apply, unit_apply, Ideal.mulf_def]

/-- A row's unit vector against its class's summed unit vectors, at a row labelled with the class `c`. -/
theorem dot_apply (i : Fin 1000000) (c : Fin 100) (h : x1 (ix1 i) = BitVec.ofNat 32 c.val) :
    Read.val_main_v29 (F := Ideal) x0 x1 (ix1 i)
      = ∑ k : Fin 128, rowUnit (xrow x0 i) k * msum x0 x1 (BitVec.ofNat 32 c.val) k := by
  rw [Read.val_main_v29_apply, Read.val_main_cst_7_apply, Ideal.ofBits_def, Ideal.ofBits_zero_f32, zero_add]
  refine Finset.sum_congr rfl fun k _ => ?_
  rw [idx_row29, Read.val_main_v28_apply, unit_apply, gmsum_apply x0 x1 i k c h, Ideal.mulf_def]

/-- The weight's denominator, at a row labelled with the class `c`. -/
theorem den_apply (i : Fin 1000000) (c : Fin 100) (h : x1 (ix1 i) = BitVec.ofNat 32 c.val) :
    Read.val_main_v37 (F := Ideal) x1 (ix1 i)
      = max (cnt x1 (BitVec.ofNat 32 c.val) - 1) 1 * max (cnt x1 (BitVec.ofNat 32 c.val)) 1 := by
  rw [Read.val_main_v37_apply, Read.val_main_v34_apply, Read.val_main_v36_apply, Read.val_main_v32_apply,
    Read.val_main_v31_apply, Read.val_main_v33_apply, Read.val_main_v35_apply,
    Read.val_main_cst_8_apply, Read.val_main_cst_9_apply, Read.val_main_cst_10_apply, gcount_apply x1 i c h,
    Ideal.ofBits_def, Ideal.ofBits_one_f32, Ideal.mulf_def, Ideal.maximumf_def, Ideal.maximumf_def, Ideal.subf_def]

/-- A row's weight within the class `c`, at a row labelled with `c`. -/
theorem weight_apply (i : Fin 1000000) (c : Fin 100) (h : x1 (ix1 i) = BitVec.ofNat 32 c.val) :
    Read.val_main_v38 (F := Ideal) x0 x1 (ix1 i) = wgt x0 x1 (BitVec.ofNat 32 c.val) i := by
  rw [Read.val_main_v38_apply, Read.val_main_v30_apply, dot_apply x0 x1 i c h, sq_apply, den_apply x1 i c h,
    Ideal.hostDivf_def, Ideal.subf_def]
  unfold wgt rowWeight
  rfl

/-- The weighted sums: a scatter-add of the weighted rows from a zero table. A row whose label is not the class
    contributes zero whatever its weight; a row whose label is the class carries that class's weight. -/
theorem psum_apply (c : Fin 100) (d : Fin 128) :
    Read.val_main_v44 (F := Ideal) x0 x1 (ix2 c d) = psum x0 x1 (BitVec.ofNat 32 c.val) d := by
  unfold Read.val_main_v44
  rw [host_scatterMat, Read.val_main_v42_apply, Read.val_main_cst_11_apply,
    Ideal.ofBits_def, Ideal.ofBits_zero_f32, zero_add]
  unfold psum
  refine Finset.sum_congr rfl fun i _ => ?_
  rw [Read.val_main_v43_apply, idx_lab43]
  by_cases h : x1 (ix1 i) = BitVec.ofNat 32 c.val
  · rw [Read.val_main_v41_apply, Read.val_main_v40_apply, idx_col40, Read.val_main_v39_apply, idx_col39,
      weight_apply x0 x1 i c h, Ideal.mulf_def]
  · unfold hot
    rw [if_neg h, zero_mul, zero_mul]

end Stages

/-- THE REFERENCE COMPUTES THE PROTOTYPES: its result's composed term is `proto` of its two arguments. -/
theorem result_eq (m : (ℓ : Loc nD τ sig) → Buf (Elt Ideal) ℓ) (c : Dev nD) :
    Cert.ReferenceIdeal.Value.res_out0 (F := Ideal) m c
      = proto (m ((c.tc : Thread nD τ).loc main_arg0)) (m ((c.tc : Thread nD τ).loc main_arg1)) := by
  funext j
  obtain ⟨p, q, rfl⟩ : ∃ (p : Fin 100) (q : Fin 128), j = ix2 p q := ⟨j 0, j 1, eq_ix2 j⟩
  show Cert.ReferenceIdeal.Value.res_main_v49 m c (ix2 p q) = _
  rw [Read.val_main_v49_eq, Read.val_main_v49_apply, psum_apply, Read.val_main_v48_apply, idx_col48,
    Read.val_main_v47_apply, idx_col47, Read.val_main_v46_apply, count_apply, Read.val_main_v45_apply,
    Read.val_main_cst_12_apply, Ideal.ofBits_def, Ideal.ofBits_one_f32, Ideal.hostDivf_def, Ideal.maximumf_def]
  rfl

end Cert.ReferenceIdeal.RefValue

end
-- ==== Proof.lean ====
/-
  The per-class prototypes computed two ways are one function of the inputs.

  Both programs take features `x : [1000000, 128]` and integer labels and return, for each of 100 classes,
  the weighted mean of the class's rows, the weight of a row being its mean cosine affinity to the other
  rows of the class (`Cert.Proto.proto`, module Spec).  The reference forms the per-class count, sum of unit
  vectors and weighted sum by scatter-adds over the rows and looks a row's class data up by gathers.  The
  kernel pads the rows to 123 tiles of 8192 (padded rows get the label 100, a class that is dropped), and in
  two grid launches accumulates the same three tables tile by tile as products with the rows' one-hot
  matrices, looking a row's class data up by a product with its one-hot vector.  Over the extended reals a
  scatter-add onto class `c` and a product with the one-hot column of `c` are the same sum over the rows
  labelled `c`, and regrouping the rows into tiles only reorders a finite sum, so the two results agree
  entry by entry; nothing about finiteness of the inputs is used, and labels outside 0 … 99 contribute to no
  kept class on either side.

  The three frames are the generated ones (the reference's is its generated run with the result dropped),
  the idealization ledger is empty, and the algebraic claim runs both programs to `proto` of the arguments:
  the kernel by the launch over its segments with the result buffer read back (KernelRun) and the value of
  that buffer (KValue, over KHost, KRegion0, KRegion1 and PureSums), the reference by its generated run and
  the reading of its composed term (RefValue).
-/
import proofs.«416101_j13142599925900_1_alg».proof.Defs
import proofs.«416101_j13142599925900_1_alg».proof.Proof.Gen.Kernel
import proofs.«416101_j13142599925900_1_alg».proof.Proof.Gen.Kernel.Skeleton
import proofs.«416101_j13142599925900_1_alg».proof.Proof.Gen.Kernel.Launch
import proofs.«416101_j13142599925900_1_alg».proof.Proof.Gen.Kernel.Points
import proofs.«416101_j13142599925900_1_alg».proof.Proof.Gen.Kernel.Frame
import proofs.«416101_j13142599925900_1_alg».proof.Proof.Gen.KernelIdeal
import proofs.«416101_j13142599925900_1_alg».proof.Proof.Gen.KernelIdeal.Skeleton
import proofs.«416101_j13142599925900_1_alg».proof.Proof.Gen.KernelIdeal.Launch
import proofs.«416101_j13142599925900_1_alg».proof.Proof.Gen.KernelIdeal.Points
import proofs.«416101_j13142599925900_1_alg».proof.Proof.Gen.KernelIdeal.Frame
import proofs.«416101_j13142599925900_1_alg».proof.Proof.Gen.ReferenceIdeal
import proofs.«416101_j13142599925900_1_alg».proof.Proof.Gen.ReferenceIdeal.Run
import proofs.«416101_j13142599925900_1_alg».proof.Proof.Gen.ReferenceIdeal.Read
import proofs.«416101_j13142599925900_1_alg».proof.Proof.Gen.Pre_finite_inputs
import proofs.«416101_j13142599925900_1_alg».proof.Proof.Spec
import proofs.«416101_j13142599925900_1_alg».proof.Proof.KernelRun
import proofs.«416101_j13142599925900_1_alg».proof.Proof.KValue
import proofs.«416101_j13142599925900_1_alg».proof.Proof.RefValue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  fun m ρ m' ρ' _ hagree =>
    ⟨fun c => Cert.Proto.proto (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      (θ_run Cert.KernelIdeal.defs _ _).mono
        (fun _ h c => ⟨(h c).1.trans (Cert.KernelIdeal.KValue.result_eq m ρ c), (h c).2⟩)
        (Cert.KernelIdeal.RunValue.run_value (F := Ideal) m ρ),
      (θ_run Cert.ReferenceIdeal.defs _ _).mono
        (fun _ h c => ⟨(h c).1.trans ((Cert.ReferenceIdeal.RefValue.result_eq m' c).trans (by rw [(hagree c).1, (hagree c).2])), (h c).2⟩)
        (Cert.ReferenceIdeal.Value.run (F := Ideal) m' ρ')⟩⟩

end Cert.Proof

end
